-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x192x192x192 : Shape := ⟨5, ![4, 1, 192, 192, 192]⟩
abbrev S_ : Shape := ⟨0, ![]⟩

class Facts : Prop where
  bcast_S_S4x1x192x192x192 : S_.BroadcastsInDim S4x1x192x192x192 (![] : Fin 0 → Fin S4x1x192x192x192.rank)
  reducesTo_S4x1x192x192x192_S_d0_1_2_3_4 : S4x1x192x192x192.ReducesTo [0, 1, 2, 3, 4] S_
  h_S_ : 0 < S_.numel

variable [Facts]

def fn {F : FTy → Type} [FloatOps F] (main_arg0 : FVec F S4x1x192x192x192 .f32) (main_arg1 : FVec F S4x1x192x192x192 .f32) : IVec S_ 1 :=
  let main_v0 : FVec F S4x1x192x192x192 .f32 := Host.absf main_arg0
  let main_cst : FVec F S_ .f32 := constant S_ .f32 0x7F800000#32
  let main_v1 : FVec F S4x1x192x192x192 .f32 := broadcastInDim S4x1x192x192x192 ![] bcast_S_S4x1x192x192x192 main_cst
  let main_v2 : IVec S4x1x192x192x192 1 := cmpf .olt main_v0 main_v1
  let main_c : IVec S_ 1 := constantI S_ 1 1#1
  let main_v3 : IVec S_ 1 := (fun x v => Host.reduce IntOp.andi x v reducesTo_S4x1x192x192x192_S_d0_1_2_3_4 h_S_) main_v2 main_c
  let main_v4 : FVec F S4x1x192x192x192 .f32 := Host.absf main_arg1
  let main_cst_0 : FVec F S_ .f32 := constant S_ .f32 0x7F800000#32
  let main_v5 : FVec F S4x1x192x192x192 .f32 := broadcastInDim S4x1x192x192x192 ![] bcast_S_S4x1x192x192x192 main_cst_0
  let main_v6 : IVec S4x1x192x192x192 1 := cmpf .olt main_v4 main_v5
  let main_c_1 : IVec S_ 1 := constantI S_ 1 1#1
  let main_v7 : IVec S_ 1 := (fun x v => Host.reduce IntOp.andi x v reducesTo_S4x1x192x192x192_S_d0_1_2_3_4 h_S_) main_v6 main_c_1
  let main_v8 : IVec S_ 1 := andi main_v3 main_v7
  main_v8
-- ==== Kernel.lean ====
abbrev S4x1x192x192x192 : Shape := ⟨5, ![4, 1, 192, 192, 192]⟩
abbrev S4x1x1 : Shape := ⟨3, ![4, 1, 1]⟩
abbrev S1x1x24x192x192 : Shape := ⟨5, ![1, 1, 24, 192, 192]⟩
abbrev S1x1x1 : Shape := ⟨3, ![1, 1, 1]⟩
abbrev S1x1x24x192 : Shape := ⟨4, ![1, 1, 24, 192]⟩
abbrev S1x1x24 : Shape := ⟨3, ![1, 1, 24]⟩
abbrev S1x1 : Shape := ⟨2, ![1, 1]⟩
abbrev S1 : Shape := ⟨1, ![1]⟩
abbrev S4 : Shape := ⟨1, ![4]⟩
abbrev S_ : Shape := ⟨0, ![]⟩

abbrev nBuf : Space → Nat
  | .hbm => 54
  | .vmem => 14
  | .smem => 0
  | _ => 0

abbrev bufTy : (tb : Table) → Fin (tcTables nBuf tb) → BufTy
  | .hbm, ⟨0, _⟩ => ⟨S4x1x192x192x192, .f32⟩
  | .hbm, ⟨1, _⟩ => ⟨S4x1x192x192x192, .f32⟩
  | .hbm, ⟨2, _⟩ => ⟨S4x1x1, .f32⟩
  | .hbm, ⟨3, _⟩ => ⟨S4x1x1, .f32⟩
  | .hbm, ⟨4, _⟩ => ⟨S4x1x1, .f32⟩
  | .hbm, ⟨5, _⟩ => ⟨S4x1x1, .f32⟩
  | .hbm, ⟨6, _⟩ => ⟨S4x1x1, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S4, .f32⟩
  | .hbm, ⟨41, _⟩ => ⟨S4, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S_, .f32⟩
  | .hbm, ⟨51, _⟩ => ⟨S4, .f32⟩
  | .hbm, ⟨52, _⟩ => ⟨S4, .f32⟩
  | .hbm, ⟨53, _⟩ => ⟨S4, .f32⟩
  | .local _ .vmem, ⟨0, _⟩ => ⟨S1x1x24x192x192, .f32⟩
  | .local _ .vmem, ⟨1, _⟩ => ⟨S1x1x24x192x192, .f32⟩
  | .local _ .vmem, ⟨2, _⟩ => ⟨S1x1x24x192x192, .f32⟩
  | .local _ .vmem, ⟨3, _⟩ => ⟨S1x1x24x192x192, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | _, _ => ⟨S4x1x192x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v30 : BitVec 1 := Scalar.cmpi .eq arg1 c0_i32
  let v31 : BitVec 32 := Scalar.extui v30
  let c0_i32_28 : BitVec 32 := 0#32
  let v32 : BitVec 1 := Scalar.cmpi .ne v31 c0_i32_28
  v32

def k0_cond2 (i : grid0.Coords) : BitVec 1 :=
  let arg1 : BitVec 32 := BitVec.ofNat 32 (i 1).val
  let c0_i32_29 : BitVec 32 := 0#32
  let v33 : BitVec 1 := Scalar.cmpi .ne arg1 c0_i32_29
  let v34 : BitVec 32 := Scalar.extui v33
  let c0_i32_30 : BitVec 32 := 0#32
  let v35 : BitVec 1 := Scalar.cmpi .ne v34 c0_i32_30
  v35

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x24x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x24x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S1x1x24x192x192_S1x1x24x192x192_0_0_0_0_0 : ∀ a, (![0, 0, 0, 0, 0] : Fin 5 → Nat) a + S1x1x24x192x192.size a ≤ S1x1x24x192x192.size a
  h_S1x1x24x192x192 : 0 < S1x1x24x192x192.numel
  reduces_S1x1x24x192x192_S1x1x24x192 : S1x1x24x192x192.Reduces [4] S1x1x24x192
  reduces_S1x1x24x192_S1x1x24 : S1x1x24x192.Reduces [3] S1x1x24
  reduces_S1x1x24_S1x1 : S1x1x24.Reduces [2] S1x1
  reduces_S1x1_S1 : S1x1.Reduces [1] S1
  shapeCasts_S1_S1x1x1 : S1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  shapeCasts_S4x1x1_S4 : S4x1x1.ShapeCasts S4
  bcast_S_S4 : S_.BroadcastsInDim S4 (![] : Fin 0 → Fin S4.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x24x192x192.size a ≤ S4x1x192x192x192.size a
  hwx0_0 : ∀ i : grid0.Coords, EltTy.bits .f32 = 32 ∨ (Rect.block (s := S4x1x192x192x192) S1x1x24x192x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x24x192x192.size a ≤ S4x1x192x192x192.size a
  hwx0_1 : ∀ i : grid0.Coords, EltTy.bits .f32 = 32 ∨ (Rect.block (s := S4x1x192x192x192) S1x1x24x192x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S4x1x1.size a
  hwx0_3 : ∀ i : grid0.Coords, EltTy.bits .f32 = 32 ∨ (Rect.block (s := S4x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S4x1x1.size a
  hwx0_4 : ∀ i : grid0.Coords, EltTy.bits .f32 = 32 ∨ (Rect.block (s := S4x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S4x1x1.size a
  hwx0_5 : ∀ i : grid0.Coords, EltTy.bits .f32 = 32 ∨ (Rect.block (s := S4x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S4x1x1.size a
  hwx0_6 : ∀ i : grid0.Coords, EltTy.bits .f32 = 32 ∨ (Rect.block (s := S4x1x1) S1x1x1.size (cc0_transform_6 i) (hinb0_6 i)).WholeWords (EltTy.packing .f32)

variable [Facts₀]

abbrev win0_0 : Pipeline.Window sig grid0 :=
  Pipeline.Window.ofSpec (Memref.whole main_arg0) S1x1x24x192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x24x192x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun i => !(k0_cond1 i == 1#1) && !(k0_cond2 i == 1#1) | 3 => fun i => !(k0_cond1 i == 1#1) && !(k0_cond2 i == 1#1) | 4 => fun i => !(k0_cond1 i == 1#1) && !(k0_cond2 i == 1#1) | 5 => fun i => !(k0_cond1 i == 1#1) && !(k0_cond2 i == 1#1) | 6 => fun i => !(k0_cond1 i == 1#1) && !(k0_cond2 i == 1#1) | ⟨_ + 7, h⟩ => absurd h (Nat.not_lt.2 (Nat.le_add_left _ _))

class Facts : Prop extends Facts₀ where

variable [Facts]
-- ==== ReferenceIdeal.lean ====
abbrev S4x1x192x192x192 : Shape := ⟨5, ![4, 1, 192, 192, 192]⟩
abbrev S_ : Shape := ⟨0, ![]⟩
abbrev S4 : Shape := ⟨1, ![4]⟩

abbrev nBuf : Space → Nat
  | .hbm => 57
  | .vmem => 0
  | .smem => 0
  | _ => 0

abbrev bufTy : (tb : Table) → Fin (tcTables nBuf tb) → BufTy
  | .hbm, ⟨0, _⟩ => ⟨S4x1x192x192x192, .f32⟩
  | .hbm, ⟨1, _⟩ => ⟨S4x1x192x192x192, .f32⟩
  | .hbm, ⟨2, _⟩ => ⟨S_, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4x1x192x192x192, .f32⟩
  | .hbm, ⟨7, _⟩ => ⟨S_, .f32⟩
  | .hbm, ⟨8, _⟩ => ⟨S4, .f32⟩
  | .hbm, ⟨9, _⟩ => ⟨S4x1x192x192x192, .f32⟩
  | .hbm, ⟨10, _⟩ => ⟨S_, .f32⟩
  | .hbm, ⟨11, _⟩ => ⟨S4, .f32⟩
  | .hbm, ⟨12, _⟩ => ⟨S4x1x192x192x192, .f32⟩
  | .hbm, ⟨13, _⟩ => ⟨S_, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S4, .f32⟩
  | .hbm, ⟨23, _⟩ => ⟨S4, .f32⟩
  | .hbm, ⟨24, _⟩ => ⟨S4, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S4, .f32⟩
  | .hbm, ⟨53, _⟩ => ⟨S_, .f32⟩
  | .hbm, ⟨54, _⟩ => ⟨S4, .f32⟩
  | .hbm, ⟨55, _⟩ => ⟨S4, .f32⟩
  | .hbm, ⟨56, _⟩ => ⟨S4, .f32⟩
  | _, _ => ⟨S4x1x192x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  reducesTo_S4x1x192x192x192_S4_d1_2_3_4 : S4x1x192x192x192.ReducesTo [1, 2, 3, 4] S4
  h_S_ : 0 < S_.numel
  bcast_S_S4 : S_.BroadcastsInDim S4 (![] : Fin 0 → Fin S4.rank)

variable [Facts₀]

class Facts : Prop extends Facts₀ where

variable [Facts]
-- ==== Proof.HandKernel.Runs.lean ====
/-
  The kernel body at a symbolic grid point (b, d), for every float instance.

  The body loads the two input blocks x0 (window 0) and x1 (window 1), forms five block totals — of x1, of x0, of x1·x1,
  of x0·x0 and of x1·x0, each by summing along the axes 4, 3, 2, 1 in turn — and then
    * where d = 0 stores the five totals into the five one-element output blocks, whatever these held;
    * where d ≠ 0 adds each total to what its output block holds and stores the sum back.
  Exactly one of the two branches runs at a point. The two runs below say what each output block reads as afterwards:
  the canon of its one store, which covers the block.
-/
import proofs.«174523_j64441689309643_1_alg».proof.Proof.Gen.Kernel
import proofs.«174523_j64441689309643_1_alg».proof.Proof.Gen.Kernel.Skeleton
import proofs.«174523_j64441689309643_1_alg».proof.Proof.Gen.Kernel.Launch
import Idealize.ShloMosaic.Lib.Writes
import Idealize.ShloMosaic.Lib.Pipeline.FrameBody
import Idealize.ShloMosaic.Lib.Tactic

noncomputable section

namespace Cert.Hand.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rectangle every access of an input block goes through: the whole block at zero offsets. -/
abbrev rB : Rect S1x1x24x192x192 :=
  Rect.unit (s := S1x1x24x192x192) ![0, 0, 0, 0, 0] S1x1x24x192x192.size inb_S1x1x24x192x192_S1x1x24x192x192_0_0_0_0_0
/-- The same for a one-element output block. -/
abbrev rO : Rect S1x1x1 := Rect.unit (s := S1x1x1) ![0, 0, 0] S1x1x1.size inb_S1x1x1_S1x1x1_0_0_0

/-- The five block totals, as the body forms them from the loaded blocks. -/
abbrev tot2 (x0 x1 : Vec F S1x1x24x192x192 .f32) : FVec F S1x1x1 .f32 := k0_pay7 (View.ld x1 rB)
abbrev tot3 (x0 x1 : Vec F S1x1x24x192x192 .f32) : FVec F S1x1x1 .f32 := k0_pay8 (View.ld x0 rB)
abbrev tot4 (x0 x1 : Vec F S1x1x24x192x192 .f32) : FVec F S1x1x1 .f32 := k0_pay9 (View.ld x1 rB)
abbrev tot5 (x0 x1 : Vec F S1x1x24x192x192 .f32) : FVec F S1x1x1 .f32 := k0_pay10 (View.ld x0 rB)
abbrev tot6 (x0 x1 : Vec F S1x1x24x192x192 .f32) : FVec F S1x1x1 .f32 := k0_pay1 (k0_pay11 (View.ld x0 rB) (View.ld x1 rB))

/-- What the output blocks read as after a point with d = 0: the totals. -/
abbrev first2 (x0 x1 : Vec F S1x1x24x192x192 .f32) : Vec F S1x1x1 .f32 := View.canon [⟨rO, tot2 x0 x1⟩]
abbrev first3 (x0 x1 : Vec F S1x1x24x192x192 .f32) : Vec F S1x1x1 .f32 := View.canon [⟨rO, tot3 x0 x1⟩]
abbrev first4 (x0 x1 : Vec F S1x1x24x192x192 .f32) : Vec F S1x1x1 .f32 := View.canon [⟨rO, tot4 x0 x1⟩]
abbrev first5 (x0 x1 : Vec F S1x1x24x192x192 .f32) : Vec F S1x1x1 .f32 := View.canon [⟨rO, tot5 x0 x1⟩]
abbrev first6 (x0 x1 : Vec F S1x1x24x192x192 .f32) : Vec F S1x1x1 .f32 := View.canon [⟨rO, tot6 x0 x1⟩]

/-- What they read as after a point with d ≠ 0, over what they held (a): a plus the total. -/
abbrev next2 (a : Vec F S1x1x1 .f32) (x0 x1 : Vec F S1x1x24x192x192 .f32) : Vec F S1x1x1 .f32 :=
  View.canon [⟨rO, k0_pay2 (tot2 x0 x1) (View.ld a rO)⟩]
abbrev next3 (a : Vec F S1x1x1 .f32) (x0 x1 : Vec F S1x1x24x192x192 .f32) : Vec F S1x1x1 .f32 :=
  View.canon [⟨rO, k0_pay3 (tot3 x0 x1) (View.ld a rO)⟩]
abbrev next4 (a : Vec F S1x1x1 .f32) (x0 x1 : Vec F S1x1x24x192x192 .f32) : Vec F S1x1x1 .f32 :=
  View.canon [⟨rO, k0_pay4 (tot4 x0 x1) (View.ld a rO)⟩]
abbrev next5 (a : Vec F S1x1x1 .f32) (x0 x1 : Vec F S1x1x24x192x192 .f32) : Vec F S1x1x1 .f32 :=
  View.canon [⟨rO, k0_pay5 (tot5 x0 x1) (View.ld a rO)⟩]
abbrev next6 (a : Vec F S1x1x1 .f32) (x0 x1 : Vec F S1x1x24x192x192 .f32) : Vec F S1x1x1 .f32 :=
  View.canon [⟨rO, k0_pay6 (k0_pay11 (View.ld x0 rB) (View.ld x1 rB)) (View.ld a rO)⟩]

omit [FloatOps F] in
/-- One store through the whole-block rectangle covers the one-element block. -/
theorem coverO (p : Vec F S1x1x1 .f32) (y : S1x1x1.Idx) :
    ∃ pc ∈ ([⟨rO, p⟩] : List (View.Piece (Elt F) S1x1x1 .f32)), y ∈ pc.1.set :=
  View.cover_of_tiled [⟨rO, p⟩] S1x1x1.size (by rfl) y

section Runs

variable (c : Dev nD) (i : grid0.Coords)
  (M0 : Memref sig .tc .vmem S1x1x24x192x192 .f32) (h0 : M0.IsWhole) (M1 : Memref sig .tc .vmem S1x1x24x192x192 .f32) (h1 : M1.IsWhole)
  (M2 : Memref sig .tc .vmem S1x1x1 .f32) (h2 : M2.IsWhole) (M3 : Memref sig .tc .vmem S1x1x1 .f32) (h3 : M3.IsWhole)
  (M4 : Memref sig .tc .vmem S1x1x1 .f32) (h4 : M4.IsWhole) (M5 : Memref sig .tc .vmem S1x1x1 .f32) (h5 : M5.IsWhole)
  (M6 : Memref sig .tc .vmem S1x1x1 .f32) (h6 : M6.IsWhole)
  (x0 x1 : Vec F S1x1x24x192x192 .f32) (a2 a3 a4 a5 a6 : Vec F S1x1x1 .f32)

local notation "BODY" => cc0__ncc_sums_kernel i M0 h0 M1 h1 M2 h2 M3 h3 M4 h4 M5 h5 M6 h6

/-- A point with d = 0: the outputs, whatever they held, end at the five totals; the inputs are only read. -/
theorem run_first (hA : k0_cond1 i = 1#1) (hB : ¬ k0_cond2 i = 1#1) (Q : PUnit → sProp 𝕄) :
    iprop(owns (c : Thread nD τ) M0 fullShare x0 ∗ owns (c : Thread nD τ) M1 fullShare x1
      ∗ (∃ d, owns (c : Thread nD τ) M2 fullShare d) ∗ (∃ d, owns (c : Thread nD τ) M3 fullShare d)
      ∗ (∃ d, owns (c : Thread nD τ) M4 fullShare d) ∗ (∃ d, owns (c : Thread nD τ) M5 fullShare d)
      ∗ (∃ d, owns (c : Thread nD τ) M6 fullShare d)
      ∗ (iprop(owns (c : Thread nD τ) M0 fullShare x0 ∗ owns (c : Thread nD τ) M1 fullShare x1
          ∗ owns (c : Thread nD τ) M2 fullShare (first2 x0 x1) ∗ owns (c : Thread nD τ) M3 fullShare (first3 x0 x1)
          ∗ owns (c : Thread nD τ) M4 fullShare (first4 x0 x1) ∗ owns (c : Thread nD τ) M5 fullShare (first5 x0 x1)
          ∗ owns (c : Thread nD τ) M6 fullShare (first6 x0 x1)) -∗ Q ⟨⟩))
      ⊢ wp frame (wpE (defs₀ (F := F)) Variants.none c none) Set.univ BODY Q := by
  unfold owns
  iintro ⟨⟨%f0, %hf0, H0⟩, ⟨%f1, %hf1, H1⟩, ⟨%d2, %f2, %hf2, H2⟩, ⟨%d3, %f3, %hf3, H3⟩, ⟨%d4, %f4, %hf4, H4⟩,
    ⟨%d5, %f5, %hf5, H5⟩, ⟨%d6, %f6, %hf6, H6⟩, Hk⟩
  subst hf0 hf1
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists _; isplitr; swap; (· iexact H2); ipureintro; exact View.read_writes_eq_canon _ _ _ (coverO _)
  isplitl [H3]; · iexists _; isplitr; swap; (· iexact H3); ipureintro; exact View.read_writes_eq_canon _ _ _ (coverO _)
  isplitl [H4]; · iexists _; isplitr; swap; (· iexact H4); ipureintro; exact View.read_writes_eq_canon _ _ _ (coverO _)
  isplitl [H5]; · iexists _; isplitr; swap; (· iexact H5); ipureintro; exact View.read_writes_eq_canon _ _ _ (coverO _)
  iexists _; isplitr; swap; (· iexact H6); ipureintro; exact View.read_writes_eq_canon _ _ _ (coverO _)

/-- A point with d ≠ 0: the outputs, at a2 … a6, end at these plus the totals; the inputs are only read. -/
theorem run_next (hA : ¬ k0_cond1 i = 1#1) (hB : k0_cond2 i = 1#1) (Q : PUnit → sProp 𝕄) :
    iprop(owns (c : Thread nD τ) M0 fullShare x0 ∗ owns (c : Thread nD τ) M1 fullShare x1
      ∗ owns (c : Thread nD τ) M2 fullShare a2 ∗ owns (c : Thread nD τ) M3 fullShare a3
      ∗ owns (c : Thread nD τ) M4 fullShare a4 ∗ owns (c : Thread nD τ) M5 fullShare a5
      ∗ owns (c : Thread nD τ) M6 fullShare a6
      ∗ (iprop(owns (c : Thread nD τ) M0 fullShare x0 ∗ owns (c : Thread nD τ) M1 fullShare x1
          ∗ owns (c : Thread nD τ) M2 fullShare (next2 a2 x0 x1) ∗ owns (c : Thread nD τ) M3 fullShare (next3 a3 x0 x1)
          ∗ owns (c : Thread nD τ) M4 fullShare (next4 a4 x0 x1) ∗ owns (c : Thread nD τ) M5 fullShare (next5 a5 x0 x1)
          ∗ owns (c : Thread nD τ) M6 fullShare (next6 a6 x0 x1)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%f4, %hf4, H4⟩,
    ⟨%f5, %hf5, H5⟩, ⟨%f6, %hf6, H6⟩, Hk⟩
  subst hf0 hf1 hf2 hf3 hf4 hf5 hf6
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists _; isplitr; swap; (· iexact H2); ipureintro; exact View.read_writes_eq_canon _ _ _ (coverO _)
  isplitl [H3]; · iexists _; isplitr; swap; (· iexact H3); ipureintro; exact View.read_writes_eq_canon _ _ _ (coverO _)
  isplitl [H4]; · iexists _; isplitr; swap; (· iexact H4); ipureintro; exact View.read_writes_eq_canon _ _ _ (coverO _)
  isplitl [H5]; · iexists _; isplitr; swap; (· iexact H5); ipureintro; exact View.read_writes_eq_canon _ _ _ (coverO _)
  iexists _; isplitr; swap; (· iexact H6); ipureintro; exact View.read_writes_eq_canon _ _ _ (coverO _)

end Runs

end Cert.Hand.Kernel

end
-- ==== Proof.HandKernel.Body.lean ====
/-
  The pipeline's proof data for the one pallas_call, the body obligation at every grid point, the run of @main and
  the frame, for every float instance.

  The grid is 4 × 8, point t = 8·b + d. Each of the five outputs has one block per b, so its staging buffer is
  carried along the eight points of a run and written back at the last (t ≡ 7 mod 8). What a buffer reads as after
  point t is therefore a recursion on t: the block total where t ≡ 0 (mod 8), else what the point before left plus the
  block total. The two branch conditions of the body are, in closed form, "t ≡ 0" and "t ≢ 0 (mod 8)", so at every
  point exactly one branch stores and no output is ever idle.
-/
import proofs.«174523_j64441689309643_1_alg».proof.Proof.HandKernel.Runs
import proofs.«174523_j64441689309643_1_alg».proof.Proof.Gen.Kernel.Frame
import Idealize.ShloMosaic.Lib.Pipeline.Value

set_option maxRecDepth 16384

noncomputable section

namespace Cert.Hand.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch runs exactly at the first point of each run of eight. -/
theorem cond1_iff : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second branch runs at every other point. -/
theorem cond2_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
/-- One of the two branches runs wherever the grid coordinates are: no output is idle anywhere. -/
theorem live2 : ∀ i : grid0.Coords, cfg0.idle 2 i = false := by decide +kernel
theorem live3 : ∀ i : grid0.Coords, cfg0.idle 3 i = false := by decide +kernel
theorem live4 : ∀ i : grid0.Coords, cfg0.idle 4 i = false := by decide +kernel
theorem live5 : ∀ i : grid0.Coords, cfg0.idle 5 i = false := by decide +kernel
theorem live6 : ∀ i : grid0.Coords, cfg0.idle 6 i = false := by decide +kernel

variable (m : (ℓ : Loc nD τ sig) → Buf (Elt F) ℓ) (ρ : Dev nD → PrngReg)

/-! ## The blocks and the accumulation -/

/-- The two input blocks at point t, at their literal type. -/
abbrev xb0 (c : Dev nD) (t : Fin cfg0.N) : Vec F S1x1x24x192x192 .f32 := iblk m c 0 t
abbrev xb1 (c : Dev nD) (t : Fin cfg0.N) : Vec F S1x1x24x192x192 .f32 := iblk m c 1 t

/-- What an output block reads as after the body at position n, for any pair of "what the first point of a run of eight
    stores" (fst, of the two input blocks) and "what a later point stores over what the block held" (nxt): at a multiple
    of 8 the first, else the second over what position n - 1 left. -/
def accG (fst : Vec F S1x1x24x192x192 .f32 → Vec F S1x1x24x192x192 .f32 → Vec F S1x1x1 .f32)
    (nxt : Vec F S1x1x1 .f32 → Vec F S1x1x24x192x192 .f32 → Vec F S1x1x24x192x192 .f32 → Vec F S1x1x1 .f32)
    (c : Dev nD) : (n : ℕ) → n < cfg0.N → Vec F S1x1x1 .f32
  | 0, hn => fst (xb0 m c ⟨0, hn⟩) (xb1 m c ⟨0, hn⟩)
  | n + 1, hn =>
    if (n + 1) % 8 = 0 then fst (xb0 m c ⟨n + 1, hn⟩) (xb1 m c ⟨n + 1, hn⟩)
    else nxt (accG fst nxt c n (Nat.lt_of_succ_lt hn)) (xb0 m c ⟨n + 1, hn⟩) (xb1 m c ⟨n + 1, hn⟩)

/-- At the first point of a run: the first value. -/
theorem accG_first (fst : Vec F S1x1x24x192x192 .f32 → Vec F S1x1x24x192x192 .f32 → Vec F S1x1x1 .f32)
    (nxt : Vec F S1x1x1 .f32 → Vec F S1x1x24x192x192 .f32 → Vec F S1x1x24x192x192 .f32 → Vec F S1x1x1 .f32)
    (c : Dev nD) (t : Fin cfg0.N) (h : t.val % 8 = 0) :
    accG m fst nxt c t.val t.isLt = fst (xb0 m c t) (xb1 m c t) := by
  obtain ⟨n, hn⟩ := t
  cases n with
  | zero => rfl
  | succ n => exact (if_pos h).trans rfl

/-- At a later point of a run: the second value, over what the point before left. -/
theorem accG_next (fst : Vec F S1x1x24x192x192 .f32 → Vec F S1x1x24x192x192 .f32 → Vec F S1x1x1 .f32)
    (nxt : Vec F S1x1x1 .f32 → Vec F S1x1x24x192x192 .f32 → Vec F S1x1x24x192x192 .f32 → Vec F S1x1x1 .f32)
    (c : Dev nD) (t : Fin cfg0.N) (h : ¬ t.val % 8 = 0) :
    accG m fst nxt c t.val t.isLt
      = nxt (accG m fst nxt c (t.val - 1) (Nat.lt_of_le_of_lt (Nat.sub_le _ _) t.isLt)) (xb0 m c t) (xb1 m c t) := by
  obtain ⟨n, hn⟩ := t
  cases n with
  | zero => exact absurd (Nat.zero_mod _) h
  | succ n => exact (if_neg h).trans rfl

/-- The five outputs' accumulations: the block totals of y_true, y_pred, y_true², y_pred², y_true·y_pred in turn. -/
abbrev acc2 (c : Dev nD) : (n : ℕ) → n < cfg0.N → Vec F S1x1x1 .f32 := accG m first2 next2 c
abbrev acc3 (c : Dev nD) : (n : ℕ) → n < cfg0.N → Vec F S1x1x1 .f32 := accG m first3 next3 c
abbrev acc4 (c : Dev nD) : (n : ℕ) → n < cfg0.N → Vec F S1x1x1 .f32 := accG m first4 next4 c
abbrev acc5 (c : Dev nD) : (n : ℕ) → n < cfg0.N → Vec F S1x1x1 .f32 := accG m first5 next5 c
abbrev acc6 (c : Dev nD) : (n : ℕ) → n < cfg0.N → Vec F S1x1x1 .f32 := accG m first6 next6 c

theorem acc2_first (c : Dev nD) (t : Fin cfg0.N) (h : t.val % 8 = 0) :
    acc2 m c t.val t.isLt = first2 (xb0 m c t) (xb1 m c t) := accG_first m first2 next2 c t h
theorem acc3_first (c : Dev nD) (t : Fin cfg0.N) (h : t.val % 8 = 0) :
    acc3 m c t.val t.isLt = first3 (xb0 m c t) (xb1 m c t) := accG_first m first3 next3 c t h
theorem acc4_first (c : Dev nD) (t : Fin cfg0.N) (h : t.val % 8 = 0) :
    acc4 m c t.val t.isLt = first4 (xb0 m c t) (xb1 m c t) := accG_first m first4 next4 c t h
theorem acc5_first (c : Dev nD) (t : Fin cfg0.N) (h : t.val % 8 = 0) :
    acc5 m c t.val t.isLt = first5 (xb0 m c t) (xb1 m c t) := accG_first m first5 next5 c t h
theorem acc6_first (c : Dev nD) (t : Fin cfg0.N) (h : t.val % 8 = 0) :
    acc6 m c t.val t.isLt = first6 (xb0 m c t) (xb1 m c t) := accG_first m first6 next6 c t h

theorem acc2_next (c : Dev nD) (t : Fin cfg0.N) (h : ¬ t.val % 8 = 0) :
    acc2 m c t.val t.isLt
      = next2 (acc2 m c (t.val - 1) (Nat.lt_of_le_of_lt (Nat.sub_le _ _) t.isLt)) (xb0 m c t) (xb1 m c t) :=
  accG_next m first2 next2 c t h
theorem acc3_next (c : Dev nD) (t : Fin cfg0.N) (h : ¬ t.val % 8 = 0) :
    acc3 m c t.val t.isLt
      = next3 (acc3 m c (t.val - 1) (Nat.lt_of_le_of_lt (Nat.sub_le _ _) t.isLt)) (xb0 m c t) (xb1 m c t) :=
  accG_next m first3 next3 c t h
theorem acc4_next (c : Dev nD) (t : Fin cfg0.N) (h : ¬ t.val % 8 = 0) :
    acc4 m c t.val t.isLt
      = next4 (acc4 m c (t.val - 1) (Nat.lt_of_le_of_lt (Nat.sub_le _ _) t.isLt)) (xb0 m c t) (xb1 m c t) :=
  accG_next m first4 next4 c t h
theorem acc5_next (c : Dev nD) (t : Fin cfg0.N) (h : ¬ t.val % 8 = 0) :
    acc5 m c t.val t.isLt
      = next5 (acc5 m c (t.val - 1) (Nat.lt_of_le_of_lt (Nat.sub_le _ _) t.isLt)) (xb0 m c t) (xb1 m c t) :=
  accG_next m first5 next5 c t h
theorem acc6_next (c : Dev nD) (t : Fin cfg0.N) (h : ¬ t.val % 8 = 0) :
    acc6 m c t.val t.isLt
      = next6 (acc6 m c (t.val - 1) (Nat.lt_of_le_of_lt (Nat.sub_le _ _) t.isLt)) (xb0 m c t) (xb1 m c t) :=
  accG_next m first6 next6 c t h

/-! ## The proof data -/

/-- The arrays as the region finds them; after the body at point t each input's buffer at its block and each output's
    at the accumulation up to t; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc2 m c t.val t.isLt
    | ⟨3, _⟩ => acc3 m c t.val t.isLt
    | ⟨4, _⟩ => acc4 m c t.val t.isLt
    | ⟨5, _⟩ => acc5 m c t.val t.isLt
    | ⟨6, _⟩ => acc6 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = acc2 m c t.val t.isLt := by dsimp only [dats]
theorem after0_3 (c : Dev nD) (t : Fin cfg0.N) : (dats m 0 c).after 3 t = acc3 m c t.val t.isLt := by dsimp only [dats]
theorem after0_4 (c : Dev nD) (t : Fin cfg0.N) : (dats m 0 c).after 4 t = acc4 m c t.val t.isLt := by dsimp only [dats]
theorem after0_5 (c : Dev nD) (t : Fin cfg0.N) : (dats m 0 c).after 5 t = acc5 m c t.val t.isLt := by dsimp only [dats]
theorem after0_6 (c : Dev nD) (t : Fin cfg0.N) : (dats m 0 c).after 6 t = acc6 m c t.val t.isLt := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point that is not the first of its run an output's buffer holds what the point before left: the point is not
    the grid's first, the buffer was not written back in between (that happens only after a run's last point), and the
    window is live everywhere and uncut. Stated once, for any output window with that schedule. -/
theorem before_next_of (c : Dev nD) (w : Fin cfg0.W) (hw : (cfg0.win w).isOut = true)
    (hfl : ∀ t : Fin cfg0.N, (cfg0.win w).flush t = true ↔ t.val % 8 = 7) (hl : ∀ i, cfg0.idle w i = false)
    (hc : ∀ (i : cfg0.grid.Coords) a, (cfg0.win w).clip i a = none)
    (t : Fin cfg0.N) (h : ¬ t.val % 8 = 0) (d) :
    (dats m 0 c).before w t d
      = (dats m 0 c).after w ⟨t.val - 1, Nat.lt_of_le_of_lt (Nat.sub_le _ _) t.isLt⟩ := by
  have hN : t.val < 32 := lt_of_lt_of_eq t.isLt (show cfg0.N = 32 from N_0)
  exact Dat.before_out_kept _ w hw t (by omega)
    (Bool.eq_false_iff.mpr fun hf => by have := (hfl _).mp hf; dsimp only at this; omega) hl hc d

theorem before0_2_next (c : Dev nD) (t : Fin cfg0.N) (h : ¬ t.val % 8 = 0) (d) :
    (dats m 0 c).before 2 t d = acc2 m c (t.val - 1) (Nat.lt_of_le_of_lt (Nat.sub_le _ _) t.isLt) :=
  (before_next_of m c 2 rfl flush0_2 live2 (fun _ _ => rfl) t h d).trans (by dsimp only [dats])
theorem before0_3_next (c : Dev nD) (t : Fin cfg0.N) (h : ¬ t.val % 8 = 0) (d) :
    (dats m 0 c).before 3 t d = acc3 m c (t.val - 1) (Nat.lt_of_le_of_lt (Nat.sub_le _ _) t.isLt) :=
  (before_next_of m c 3 rfl flush0_3 live3 (fun _ _ => rfl) t h d).trans (by dsimp only [dats])
theorem before0_4_next (c : Dev nD) (t : Fin cfg0.N) (h : ¬ t.val % 8 = 0) (d) :
    (dats m 0 c).before 4 t d = acc4 m c (t.val - 1) (Nat.lt_of_le_of_lt (Nat.sub_le _ _) t.isLt) :=
  (before_next_of m c 4 rfl flush0_4 live4 (fun _ _ => rfl) t h d).trans (by dsimp only [dats])
theorem before0_5_next (c : Dev nD) (t : Fin cfg0.N) (h : ¬ t.val % 8 = 0) (d) :
    (dats m 0 c).before 5 t d = acc5 m c (t.val - 1) (Nat.lt_of_le_of_lt (Nat.sub_le _ _) t.isLt) :=
  (before_next_of m c 5 rfl flush0_5 live5 (fun _ _ => rfl) t h d).trans (by dsimp only [dats])
theorem before0_6_next (c : Dev nD) (t : Fin cfg0.N) (h : ¬ t.val % 8 = 0) (d) :
    (dats m 0 c).before 6 t d = acc6 m c (t.val - 1) (Nat.lt_of_le_of_lt (Nat.sub_le _ _) t.isLt) :=
  (before_next_of m c 6 rfl flush0_6 live6 (fun _ _ => rfl) t h d).trans (by dsimp only [dats])

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at any point: the inputs' buffers hold their blocks; the point is the first of its run or not; in the
    first case the outputs' buffers may hold anything, in the second they hold what the point before left; the matching
    run applies, and the invariant and what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h0 : t.val % 8 = 0
  · rw [acc2_first m c t h0, acc3_first m c t h0, acc4_first m c t h0, acc5_first m c t h0, acc6_first m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ (xb0 m c t) (xb1 m c t)
      ((cond1_iff t).mpr h0) (fun h => (cond2_iff t).mp h h0) _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc2_next m c t h0, acc3_next m c t h0, acc4_next m c t h0, acc5_next m c t h0, acc6_next m c t h0]
    simp only [before0_2_next m c t h0, before0_3_next m c t h0, before0_4_next m c t h0, before0_5_next m c t h0,
      before0_6_next m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_next c (grid0.coords t) _ _ _ _ _ _ _ _ _ _ _ _ _ _ (xb0 m c t) (xb1 m c t) _ _ _ _ _
      (fun h => h0 ((cond1_iff t).mp h)) ((cond2_iff t).mpr h0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point: no output is idle at any point (the five outputs share one idleness
    condition, so one fact settles all five), so each is handed back at what the body left. -/
theorem body_obligation (c : Dev nD) : BodyObligation (dats (F := F) m 0 c) (defs₀ (F := F)) Variants.none () Set.univ := fun t => by
  rw [bigSep_W0, bigSep_W0]
  rw [live2 (cfg0.grid.coords t)]
  exact sound_body m c t

/-! ## The run and the frame -/

set_option backward.isDefEq.respectTransparency.types false in
/-- From any memory with zero counters every weakly fair execution of @main terminates; every array of the pipeline
    ends at what the write-backs leave of the proof data, and every other unscoped buffer at what the host lines after
    the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its two arguments as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Hand.Kernel

end
-- ==== Proof.HandKernelIdeal.Runs.lean ====
/-
  The kernel body at a symbolic grid point (b, d), for every float instance.

  The body loads the two input blocks x0 (window 0) and x1 (window 1), forms five block totals — of x1, of x0, of x1·x1,
  of x0·x0 and of x1·x0, each by summing along the axes 4, 3, 2, 1 in turn — and then
    * where d = 0 stores the five totals into the five one-element output blocks, whatever these held;
    * where d ≠ 0 adds each total to what its output block holds and stores the sum back.
  Exactly one of the two branches runs at a point. The two runs below say what each output block reads as afterwards:
  the canon of its one store, which covers the block.
-/
import proofs.«174523_j64441689309643_1_alg».proof.Proof.Gen.KernelIdeal
import proofs.«174523_j64441689309643_1_alg».proof.Proof.Gen.KernelIdeal.Skeleton
import proofs.«174523_j64441689309643_1_alg».proof.Proof.Gen.KernelIdeal.Launch
import Idealize.ShloMosaic.Lib.Writes
import Idealize.ShloMosaic.Lib.Pipeline.FrameBody
import Idealize.ShloMosaic.Lib.Tactic

noncomputable section

namespace Cert.Hand.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rectangle every access of an input block goes through: the whole block at zero offsets. -/
abbrev rB : Rect S1x1x24x192x192 :=
  Rect.unit (s := S1x1x24x192x192) ![0, 0, 0, 0, 0] S1x1x24x192x192.size inb_S1x1x24x192x192_S1x1x24x192x192_0_0_0_0_0
/-- The same for a one-element output block. -/
abbrev rO : Rect S1x1x1 := Rect.unit (s := S1x1x1) ![0, 0, 0] S1x1x1.size inb_S1x1x1_S1x1x1_0_0_0

/-- The five block totals, as the body forms them from the loaded blocks. -/
abbrev tot2 (x0 x1 : Vec F S1x1x24x192x192 .f32) : FVec F S1x1x1 .f32 := k0_pay7 (View.ld x1 rB)
abbrev tot3 (x0 x1 : Vec F S1x1x24x192x192 .f32) : FVec F S1x1x1 .f32 := k0_pay8 (View.ld x0 rB)
abbrev tot4 (x0 x1 : Vec F S1x1x24x192x192 .f32) : FVec F S1x1x1 .f32 := k0_pay9 (View.ld x1 rB)
abbrev tot5 (x0 x1 : Vec F S1x1x24x192x192 .f32) : FVec F S1x1x1 .f32 := k0_pay10 (View.ld x0 rB)
abbrev tot6 (x0 x1 : Vec F S1x1x24x192x192 .f32) : FVec F S1x1x1 .f32 := k0_pay1 (k0_pay11 (View.ld x0 rB) (View.ld x1 rB))

/-- What the output blocks read as after a point with d = 0: the totals. -/
abbrev first2 (x0 x1 : Vec F S1x1x24x192x192 .f32) : Vec F S1x1x1 .f32 := View.canon [⟨rO, tot2 x0 x1⟩]
abbrev first3 (x0 x1 : Vec F S1x1x24x192x192 .f32) : Vec F S1x1x1 .f32 := View.canon [⟨rO, tot3 x0 x1⟩]
abbrev first4 (x0 x1 : Vec F S1x1x24x192x192 .f32) : Vec F S1x1x1 .f32 := View.canon [⟨rO, tot4 x0 x1⟩]
abbrev first5 (x0 x1 : Vec F S1x1x24x192x192 .f32) : Vec F S1x1x1 .f32 := View.canon [⟨rO, tot5 x0 x1⟩]
abbrev first6 (x0 x1 : Vec F S1x1x24x192x192 .f32) : Vec F S1x1x1 .f32 := View.canon [⟨rO, tot6 x0 x1⟩]

/-- What they read as after a point with d ≠ 0, over what they held (a): a plus the total. -/
abbrev next2 (a : Vec F S1x1x1 .f32) (x0 x1 : Vec F S1x1x24x192x192 .f32) : Vec F S1x1x1 .f32 :=
  View.canon [⟨rO, k0_pay2 (tot2 x0 x1) (View.ld a rO)⟩]
abbrev next3 (a : Vec F S1x1x1 .f32) (x0 x1 : Vec F S1x1x24x192x192 .f32) : Vec F S1x1x1 .f32 :=
  View.canon [⟨rO, k0_pay3 (tot3 x0 x1) (View.ld a rO)⟩]
abbrev next4 (a : Vec F S1x1x1 .f32) (x0 x1 : Vec F S1x1x24x192x192 .f32) : Vec F S1x1x1 .f32 :=
  View.canon [⟨rO, k0_pay4 (tot4 x0 x1) (View.ld a rO)⟩]
abbrev next5 (a : Vec F S1x1x1 .f32) (x0 x1 : Vec F S1x1x24x192x192 .f32) : Vec F S1x1x1 .f32 :=
  View.canon [⟨rO, k0_pay5 (tot5 x0 x1) (View.ld a rO)⟩]
abbrev next6 (a : Vec F S1x1x1 .f32) (x0 x1 : Vec F S1x1x24x192x192 .f32) : Vec F S1x1x1 .f32 :=
  View.canon [⟨rO, k0_pay6 (k0_pay11 (View.ld x0 rB) (View.ld x1 rB)) (View.ld a rO)⟩]

omit [FloatOps F] in
/-- One store through the whole-block rectangle covers the one-element block. -/
theorem coverO (p : Vec F S1x1x1 .f32) (y : S1x1x1.Idx) :
    ∃ pc ∈ ([⟨rO, p⟩] : List (View.Piece (Elt F) S1x1x1 .f32)), y ∈ pc.1.set :=
  View.cover_of_tiled [⟨rO, p⟩] S1x1x1.size (by rfl) y

section Runs

variable (c : Dev nD) (i : grid0.Coords)
  (M0 : Memref sig .tc .vmem S1x1x24x192x192 .f32) (h0 : M0.IsWhole) (M1 : Memref sig .tc .vmem S1x1x24x192x192 .f32) (h1 : M1.IsWhole)
  (M2 : Memref sig .tc .vmem S1x1x1 .f32) (h2 : M2.IsWhole) (M3 : Memref sig .tc .vmem S1x1x1 .f32) (h3 : M3.IsWhole)
  (M4 : Memref sig .tc .vmem S1x1x1 .f32) (h4 : M4.IsWhole) (M5 : Memref sig .tc .vmem S1x1x1 .f32) (h5 : M5.IsWhole)
  (M6 : Memref sig .tc .vmem S1x1x1 .f32) (h6 : M6.IsWhole)
  (x0 x1 : Vec F S1x1x24x192x192 .f32) (a2 a3 a4 a5 a6 : Vec F S1x1x1 .f32)

local notation "BODY" => cc0__ncc_sums_kernel i M0 h0 M1 h1 M2 h2 M3 h3 M4 h4 M5 h5 M6 h6

/-- A point with d = 0: the outputs, whatever they held, end at the five totals; the inputs are only read. -/
theorem run_first (hA : k0_cond1 i = 1#1) (hB : ¬ k0_cond2 i = 1#1) (Q : PUnit → sProp 𝕄) :
    iprop(owns (c : Thread nD τ) M0 fullShare x0 ∗ owns (c : Thread nD τ) M1 fullShare x1
      ∗ (∃ d, owns (c : Thread nD τ) M2 fullShare d) ∗ (∃ d, owns (c : Thread nD τ) M3 fullShare d)
      ∗ (∃ d, owns (c : Thread nD τ) M4 fullShare d) ∗ (∃ d, owns (c : Thread nD τ) M5 fullShare d)
      ∗ (∃ d, owns (c : Thread nD τ) M6 fullShare d)
      ∗ (iprop(owns (c : Thread nD τ) M0 fullShare x0 ∗ owns (c : Thread nD τ) M1 fullShare x1
          ∗ owns (c : Thread nD τ) M2 fullShare (first2 x0 x1) ∗ owns (c : Thread nD τ) M3 fullShare (first3 x0 x1)
          ∗ owns (c : Thread nD τ) M4 fullShare (first4 x0 x1) ∗ owns (c : Thread nD τ) M5 fullShare (first5 x0 x1)
          ∗ owns (c : Thread nD τ) M6 fullShare (first6 x0 x1)) -∗ Q ⟨⟩))
      ⊢ wp frame (wpE (defs₀ (F := F)) Variants.none c none) Set.univ BODY Q := by
  unfold owns
  iintro ⟨⟨%f0, %hf0, H0⟩, ⟨%f1, %hf1, H1⟩, ⟨%d2, %f2, %hf2, H2⟩, ⟨%d3, %f3, %hf3, H3⟩, ⟨%d4, %f4, %hf4, H4⟩,
    ⟨%d5, %f5, %hf5, H5⟩, ⟨%d6, %f6, %hf6, H6⟩, Hk⟩
  subst hf0 hf1
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists _; isplitr; swap; (· iexact H2); ipureintro; exact View.read_writes_eq_canon _ _ _ (coverO _)
  isplitl [H3]; · iexists _; isplitr; swap; (· iexact H3); ipureintro; exact View.read_writes_eq_canon _ _ _ (coverO _)
  isplitl [H4]; · iexists _; isplitr; swap; (· iexact H4); ipureintro; exact View.read_writes_eq_canon _ _ _ (coverO _)
  isplitl [H5]; · iexists _; isplitr; swap; (· iexact H5); ipureintro; exact View.read_writes_eq_canon _ _ _ (coverO _)
  iexists _; isplitr; swap; (· iexact H6); ipureintro; exact View.read_writes_eq_canon _ _ _ (coverO _)

/-- A point with d ≠ 0: the outputs, at a2 … a6, end at these plus the totals; the inputs are only read. -/
theorem run_next (hA : ¬ k0_cond1 i = 1#1) (hB : k0_cond2 i = 1#1) (Q : PUnit → sProp 𝕄) :
    iprop(owns (c : Thread nD τ) M0 fullShare x0 ∗ owns (c : Thread nD τ) M1 fullShare x1
      ∗ owns (c : Thread nD τ) M2 fullShare a2 ∗ owns (c : Thread nD τ) M3 fullShare a3
      ∗ owns (c : Thread nD τ) M4 fullShare a4 ∗ owns (c : Thread nD τ) M5 fullShare a5
      ∗ owns (c : Thread nD τ) M6 fullShare a6
      ∗ (iprop(owns (c : Thread nD τ) M0 fullShare x0 ∗ owns (c : Thread nD τ) M1 fullShare x1
          ∗ owns (c : Thread nD τ) M2 fullShare (next2 a2 x0 x1) ∗ owns (c : Thread nD τ) M3 fullShare (next3 a3 x0 x1)
          ∗ owns (c : Thread nD τ) M4 fullShare (next4 a4 x0 x1) ∗ owns (c : Thread nD τ) M5 fullShare (next5 a5 x0 x1)
          ∗ owns (c : Thread nD τ) M6 fullShare (next6 a6 x0 x1)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%f4, %hf4, H4⟩,
    ⟨%f5, %hf5, H5⟩, ⟨%f6, %hf6, H6⟩, Hk⟩
  subst hf0 hf1 hf2 hf3 hf4 hf5 hf6
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists _; isplitr; swap; (· iexact H2); ipureintro; exact View.read_writes_eq_canon _ _ _ (coverO _)
  isplitl [H3]; · iexists _; isplitr; swap; (· iexact H3); ipureintro; exact View.read_writes_eq_canon _ _ _ (coverO _)
  isplitl [H4]; · iexists _; isplitr; swap; (· iexact H4); ipureintro; exact View.read_writes_eq_canon _ _ _ (coverO _)
  isplitl [H5]; · iexists _; isplitr; swap; (· iexact H5); ipureintro; exact View.read_writes_eq_canon _ _ _ (coverO _)
  iexists _; isplitr; swap; (· iexact H6); ipureintro; exact View.read_writes_eq_canon _ _ _ (coverO _)

end Runs

end Cert.Hand.KernelIdeal

end
-- ==== Proof.HandKernelIdeal.Body.lean ====
/-
  The pipeline's proof data for the one pallas_call, the body obligation at every grid point, the run of @main and
  the frame, for every float instance.

  The grid is 4 × 8, point t = 8·b + d. Each of the five outputs has one block per b, so its staging buffer is
  carried along the eight points of a run and written back at the last (t ≡ 7 mod 8). What a buffer reads as after
  point t is therefore a recursion on t: the block total where t ≡ 0 (mod 8), else what the point before left plus the
  block total. The two branch conditions of the body are, in closed form, "t ≡ 0" and "t ≢ 0 (mod 8)", so at every
  point exactly one branch stores and no output is ever idle.
-/
import proofs.«174523_j64441689309643_1_alg».proof.Proof.HandKernelIdeal.Runs
import proofs.«174523_j64441689309643_1_alg».proof.Proof.Gen.KernelIdeal.Frame
import Idealize.ShloMosaic.Lib.Pipeline.Value

set_option maxRecDepth 16384

noncomputable section

namespace Cert.Hand.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch runs exactly at the first point of each run of eight. -/
theorem cond1_iff : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second branch runs at every other point. -/
theorem cond2_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
/-- One of the two branches runs wherever the grid coordinates are: no output is idle anywhere. -/
theorem live2 : ∀ i : grid0.Coords, cfg0.idle 2 i = false := by decide +kernel
theorem live3 : ∀ i : grid0.Coords, cfg0.idle 3 i = false := by decide +kernel
theorem live4 : ∀ i : grid0.Coords, cfg0.idle 4 i = false := by decide +kernel
theorem live5 : ∀ i : grid0.Coords, cfg0.idle 5 i = false := by decide +kernel
theorem live6 : ∀ i : grid0.Coords, cfg0.idle 6 i = false := by decide +kernel

variable (m : (ℓ : Loc nD τ sig) → Buf (Elt F) ℓ) (ρ : Dev nD → PrngReg)

/-! ## The blocks and the accumulation -/

/-- The two input blocks at point t, at their literal type. -/
abbrev xb0 (c : Dev nD) (t : Fin cfg0.N) : Vec F S1x1x24x192x192 .f32 := iblk m c 0 t
abbrev xb1 (c : Dev nD) (t : Fin cfg0.N) : Vec F S1x1x24x192x192 .f32 := iblk m c 1 t

/-- What an output block reads as after the body at position n, for any pair of "what the first point of a run of eight
    stores" (fst, of the two input blocks) and "what a later point stores over what the block held" (nxt): at a multiple
    of 8 the first, else the second over what position n - 1 left. -/
def accG (fst : Vec F S1x1x24x192x192 .f32 → Vec F S1x1x24x192x192 .f32 → Vec F S1x1x1 .f32)
    (nxt : Vec F S1x1x1 .f32 → Vec F S1x1x24x192x192 .f32 → Vec F S1x1x24x192x192 .f32 → Vec F S1x1x1 .f32)
    (c : Dev nD) : (n : ℕ) → n < cfg0.N → Vec F S1x1x1 .f32
  | 0, hn => fst (xb0 m c ⟨0, hn⟩) (xb1 m c ⟨0, hn⟩)
  | n + 1, hn =>
    if (n + 1) % 8 = 0 then fst (xb0 m c ⟨n + 1, hn⟩) (xb1 m c ⟨n + 1, hn⟩)
    else nxt (accG fst nxt c n (Nat.lt_of_succ_lt hn)) (xb0 m c ⟨n + 1, hn⟩) (xb1 m c ⟨n + 1, hn⟩)

/-- At the first point of a run: the first value. -/
theorem accG_first (fst : Vec F S1x1x24x192x192 .f32 → Vec F S1x1x24x192x192 .f32 → Vec F S1x1x1 .f32)
    (nxt : Vec F S1x1x1 .f32 → Vec F S1x1x24x192x192 .f32 → Vec F S1x1x24x192x192 .f32 → Vec F S1x1x1 .f32)
    (c : Dev nD) (t : Fin cfg0.N) (h : t.val % 8 = 0) :
    accG m fst nxt c t.val t.isLt = fst (xb0 m c t) (xb1 m c t) := by
  obtain ⟨n, hn⟩ := t
  cases n with
  | zero => rfl
  | succ n => exact (if_pos h).trans rfl

/-- At a later point of a run: the second value, over what the point before left. -/
theorem accG_next (fst : Vec F S1x1x24x192x192 .f32 → Vec F S1x1x24x192x192 .f32 → Vec F S1x1x1 .f32)
    (nxt : Vec F S1x1x1 .f32 → Vec F S1x1x24x192x192 .f32 → Vec F S1x1x24x192x192 .f32 → Vec F S1x1x1 .f32)
    (c : Dev nD) (t : Fin cfg0.N) (h : ¬ t.val % 8 = 0) :
    accG m fst nxt c t.val t.isLt
      = nxt (accG m fst nxt c (t.val - 1) (Nat.lt_of_le_of_lt (Nat.sub_le _ _) t.isLt)) (xb0 m c t) (xb1 m c t) := by
  obtain ⟨n, hn⟩ := t
  cases n with
  | zero => exact absurd (Nat.zero_mod _) h
  | succ n => exact (if_neg h).trans rfl

/-- The five outputs' accumulations: the block totals of y_true, y_pred, y_true², y_pred², y_true·y_pred in turn. -/
abbrev acc2 (c : Dev nD) : (n : ℕ) → n < cfg0.N → Vec F S1x1x1 .f32 := accG m first2 next2 c
abbrev acc3 (c : Dev nD) : (n : ℕ) → n < cfg0.N → Vec F S1x1x1 .f32 := accG m first3 next3 c
abbrev acc4 (c : Dev nD) : (n : ℕ) → n < cfg0.N → Vec F S1x1x1 .f32 := accG m first4 next4 c
abbrev acc5 (c : Dev nD) : (n : ℕ) → n < cfg0.N → Vec F S1x1x1 .f32 := accG m first5 next5 c
abbrev acc6 (c : Dev nD) : (n : ℕ) → n < cfg0.N → Vec F S1x1x1 .f32 := accG m first6 next6 c

theorem acc2_first (c : Dev nD) (t : Fin cfg0.N) (h : t.val % 8 = 0) :
    acc2 m c t.val t.isLt = first2 (xb0 m c t) (xb1 m c t) := accG_first m first2 next2 c t h
theorem acc3_first (c : Dev nD) (t : Fin cfg0.N) (h : t.val % 8 = 0) :
    acc3 m c t.val t.isLt = first3 (xb0 m c t) (xb1 m c t) := accG_first m first3 next3 c t h
theorem acc4_first (c : Dev nD) (t : Fin cfg0.N) (h : t.val % 8 = 0) :
    acc4 m c t.val t.isLt = first4 (xb0 m c t) (xb1 m c t) := accG_first m first4 next4 c t h
theorem acc5_first (c : Dev nD) (t : Fin cfg0.N) (h : t.val % 8 = 0) :
    acc5 m c t.val t.isLt = first5 (xb0 m c t) (xb1 m c t) := accG_first m first5 next5 c t h
theorem acc6_first (c : Dev nD) (t : Fin cfg0.N) (h : t.val % 8 = 0) :
    acc6 m c t.val t.isLt = first6 (xb0 m c t) (xb1 m c t) := accG_first m first6 next6 c t h

theorem acc2_next (c : Dev nD) (t : Fin cfg0.N) (h : ¬ t.val % 8 = 0) :
    acc2 m c t.val t.isLt
      = next2 (acc2 m c (t.val - 1) (Nat.lt_of_le_of_lt (Nat.sub_le _ _) t.isLt)) (xb0 m c t) (xb1 m c t) :=
  accG_next m first2 next2 c t h
theorem acc3_next (c : Dev nD) (t : Fin cfg0.N) (h : ¬ t.val % 8 = 0) :
    acc3 m c t.val t.isLt
      = next3 (acc3 m c (t.val - 1) (Nat.lt_of_le_of_lt (Nat.sub_le _ _) t.isLt)) (xb0 m c t) (xb1 m c t) :=
  accG_next m first3 next3 c t h
theorem acc4_next (c : Dev nD) (t : Fin cfg0.N) (h : ¬ t.val % 8 = 0) :
    acc4 m c t.val t.isLt
      = next4 (acc4 m c (t.val - 1) (Nat.lt_of_le_of_lt (Nat.sub_le _ _) t.isLt)) (xb0 m c t) (xb1 m c t) :=
  accG_next m first4 next4 c t h
theorem acc5_next (c : Dev nD) (t : Fin cfg0.N) (h : ¬ t.val % 8 = 0) :
    acc5 m c t.val t.isLt
      = next5 (acc5 m c (t.val - 1) (Nat.lt_of_le_of_lt (Nat.sub_le _ _) t.isLt)) (xb0 m c t) (xb1 m c t) :=
  accG_next m first5 next5 c t h
theorem acc6_next (c : Dev nD) (t : Fin cfg0.N) (h : ¬ t.val % 8 = 0) :
    acc6 m c t.val t.isLt
      = next6 (acc6 m c (t.val - 1) (Nat.lt_of_le_of_lt (Nat.sub_le _ _) t.isLt)) (xb0 m c t) (xb1 m c t) :=
  accG_next m first6 next6 c t h

/-! ## The proof data -/

/-- The arrays as the region finds them; after the body at point t each input's buffer at its block and each output's
    at the accumulation up to t; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc2 m c t.val t.isLt
    | ⟨3, _⟩ => acc3 m c t.val t.isLt
    | ⟨4, _⟩ => acc4 m c t.val t.isLt
    | ⟨5, _⟩ => acc5 m c t.val t.isLt
    | ⟨6, _⟩ => acc6 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = acc2 m c t.val t.isLt := by dsimp only [dats]
theorem after0_3 (c : Dev nD) (t : Fin cfg0.N) : (dats m 0 c).after 3 t = acc3 m c t.val t.isLt := by dsimp only [dats]
theorem after0_4 (c : Dev nD) (t : Fin cfg0.N) : (dats m 0 c).after 4 t = acc4 m c t.val t.isLt := by dsimp only [dats]
theorem after0_5 (c : Dev nD) (t : Fin cfg0.N) : (dats m 0 c).after 5 t = acc5 m c t.val t.isLt := by dsimp only [dats]
theorem after0_6 (c : Dev nD) (t : Fin cfg0.N) : (dats m 0 c).after 6 t = acc6 m c t.val t.isLt := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point that is not the first of its run an output's buffer holds what the point before left: the point is not
    the grid's first, the buffer was not written back in between (that happens only after a run's last point), and the
    window is live everywhere and uncut. Stated once, for any output window with that schedule. -/
theorem before_next_of (c : Dev nD) (w : Fin cfg0.W) (hw : (cfg0.win w).isOut = true)
    (hfl : ∀ t : Fin cfg0.N, (cfg0.win w).flush t = true ↔ t.val % 8 = 7) (hl : ∀ i, cfg0.idle w i = false)
    (hc : ∀ (i : cfg0.grid.Coords) a, (cfg0.win w).clip i a = none)
    (t : Fin cfg0.N) (h : ¬ t.val % 8 = 0) (d) :
    (dats m 0 c).before w t d
      = (dats m 0 c).after w ⟨t.val - 1, Nat.lt_of_le_of_lt (Nat.sub_le _ _) t.isLt⟩ := by
  have hN : t.val < 32 := lt_of_lt_of_eq t.isLt (show cfg0.N = 32 from N_0)
  exact Dat.before_out_kept _ w hw t (by omega)
    (Bool.eq_false_iff.mpr fun hf => by have := (hfl _).mp hf; dsimp only at this; omega) hl hc d

theorem before0_2_next (c : Dev nD) (t : Fin cfg0.N) (h : ¬ t.val % 8 = 0) (d) :
    (dats m 0 c).before 2 t d = acc2 m c (t.val - 1) (Nat.lt_of_le_of_lt (Nat.sub_le _ _) t.isLt) :=
  (before_next_of m c 2 rfl flush0_2 live2 (fun _ _ => rfl) t h d).trans (by dsimp only [dats])
theorem before0_3_next (c : Dev nD) (t : Fin cfg0.N) (h : ¬ t.val % 8 = 0) (d) :
    (dats m 0 c).before 3 t d = acc3 m c (t.val - 1) (Nat.lt_of_le_of_lt (Nat.sub_le _ _) t.isLt) :=
  (before_next_of m c 3 rfl flush0_3 live3 (fun _ _ => rfl) t h d).trans (by dsimp only [dats])
theorem before0_4_next (c : Dev nD) (t : Fin cfg0.N) (h : ¬ t.val % 8 = 0) (d) :
    (dats m 0 c).before 4 t d = acc4 m c (t.val - 1) (Nat.lt_of_le_of_lt (Nat.sub_le _ _) t.isLt) :=
  (before_next_of m c 4 rfl flush0_4 live4 (fun _ _ => rfl) t h d).trans (by dsimp only [dats])
theorem before0_5_next (c : Dev nD) (t : Fin cfg0.N) (h : ¬ t.val % 8 = 0) (d) :
    (dats m 0 c).before 5 t d = acc5 m c (t.val - 1) (Nat.lt_of_le_of_lt (Nat.sub_le _ _) t.isLt) :=
  (before_next_of m c 5 rfl flush0_5 live5 (fun _ _ => rfl) t h d).trans (by dsimp only [dats])
theorem before0_6_next (c : Dev nD) (t : Fin cfg0.N) (h : ¬ t.val % 8 = 0) (d) :
    (dats m 0 c).before 6 t d = acc6 m c (t.val - 1) (Nat.lt_of_le_of_lt (Nat.sub_le _ _) t.isLt) :=
  (before_next_of m c 6 rfl flush0_6 live6 (fun _ _ => rfl) t h d).trans (by dsimp only [dats])

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at any point: the inputs' buffers hold their blocks; the point is the first of its run or not; in the
    first case the outputs' buffers may hold anything, in the second they hold what the point before left; the matching
    run applies, and the invariant and what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h0 : t.val % 8 = 0
  · rw [acc2_first m c t h0, acc3_first m c t h0, acc4_first m c t h0, acc5_first m c t h0, acc6_first m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ (xb0 m c t) (xb1 m c t)
      ((cond1_iff t).mpr h0) (fun h => (cond2_iff t).mp h h0) _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc2_next m c t h0, acc3_next m c t h0, acc4_next m c t h0, acc5_next m c t h0, acc6_next m c t h0]
    simp only [before0_2_next m c t h0, before0_3_next m c t h0, before0_4_next m c t h0, before0_5_next m c t h0,
      before0_6_next m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_next c (grid0.coords t) _ _ _ _ _ _ _ _ _ _ _ _ _ _ (xb0 m c t) (xb1 m c t) _ _ _ _ _
      (fun h => h0 ((cond1_iff t).mp h)) ((cond2_iff t).mpr h0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point: no output is idle at any point (the five outputs share one idleness
    condition, so one fact settles all five), so each is handed back at what the body left. -/
theorem body_obligation (c : Dev nD) : BodyObligation (dats (F := F) m 0 c) (defs₀ (F := F)) Variants.none () Set.univ := fun t => by
  rw [bigSep_W0, bigSep_W0]
  rw [live2 (cfg0.grid.coords t)]
  exact sound_body m c t

/-! ## The run and the frame -/

set_option backward.isDefEq.respectTransparency.types false in
/-- From any memory with zero counters every weakly fair execution of @main terminates; every array of the pipeline
    ends at what the write-backs leave of the proof data, and every other unscoped buffer at what the host lines after
    the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its two arguments as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Hand.KernelIdeal

end
-- ==== Proof.Tail.lean ====
/-
  The scalar algebra both programs apply, per batch entry, to the five sums I = Σ y_true, J = Σ y_pred, I2 = Σ y_true²,
  J2 = Σ y_pred², IJ = Σ y_true·y_pred: with n the window size (the float 192³, exactly representable),
      u_I = I / n,  u_J = J / n,
      cross = IJ − u_J·I − u_I·J + u_I·u_J·n,
      I_var = I2 − 2·u_I·I + u_I·u_I·n,   J_var = J2 − 2·u_J·J + u_J·u_J·n,
      cc = cross / (√I_var · √J_var + ε).
  Stated once, operation by operation and in the programs' own order, so that the two sides are the same function of
  their sums and the certificate never opens it.
-/
import Idealize.ShloMosaic.PureOps

noncomputable section

namespace Cert.Tail

open Idealize.ShloMosaic

abbrev S4 : Shape := ⟨1, ![4]⟩
abbrev S_ : Shape := ⟨0, ![]⟩

variable {F : FTy → Type} [FloatOps F]

/-- The correlation coefficient of each of the four batch entries from its five sums. -/
def cc (hb : S_.BroadcastsInDim S4 (![] : Fin 0 → Fin S4.rank)) (I J I2 J2 IJ : FVec F S4 .f32) : FVec F S4 .f32 :=
  Host.divf
    (addf (subf (subf IJ (mulf (Host.divf J (broadcastInDim S4 ![] hb (constant S_ .f32 0x4AD80000#32))) I))
        (mulf (Host.divf I (broadcastInDim S4 ![] hb (constant S_ .f32 0x4AD80000#32))) J))
      (mulf (mulf (Host.divf I (broadcastInDim S4 ![] hb (constant S_ .f32 0x4AD80000#32)))
          (Host.divf J (broadcastInDim S4 ![] hb (constant S_ .f32 0x4AD80000#32))))
        (broadcastInDim S4 ![] hb (constant S_ .f32 0x4AD80000#32))))
    (addf
      (mulf
        (Host.sqrt (addf (subf I2 (mulf (mulf (broadcastInDim S4 ![] hb (constant S_ .f32 0x40000000#32))
              (Host.divf I (broadcastInDim S4 ![] hb (constant S_ .f32 0x4AD80000#32)))) I))
          (mulf (mulf (Host.divf I (broadcastInDim S4 ![] hb (constant S_ .f32 0x4AD80000#32)))
              (Host.divf I (broadcastInDim S4 ![] hb (constant S_ .f32 0x4AD80000#32))))
            (broadcastInDim S4 ![] hb (constant S_ .f32 0x4AD80000#32)))))
        (Host.sqrt (addf (subf J2 (mulf (mulf (broadcastInDim S4 ![] hb (constant S_ .f32 0x40000000#32))
              (Host.divf J (broadcastInDim S4 ![] hb (constant S_ .f32 0x4AD80000#32)))) J))
          (mulf (mulf (Host.divf J (broadcastInDim S4 ![] hb (constant S_ .f32 0x4AD80000#32)))
              (Host.divf J (broadcastInDim S4 ![] hb (constant S_ .f32 0x4AD80000#32))))
            (broadcastInDim S4 ![] hb (constant S_ .f32 0x4AD80000#32))))))
      (broadcastInDim S4 ![] hb (constant S_ .f32 0x3727C5AC#32)))

end Cert.Tail

end
-- ==== Proof.SumLaw.lean ====
/-
  Sums over the extended reals, index sets only: no program is imported.

  * a block of shape [1, 1, 24, 192, 192] summed axis by axis, innermost first, is the total of its entries;
  * for a batch index q, the eight blocks (q, 0, s, 0, 0), s < 8, of an array of shape [4, 1, 192, 192, 192]
    tile the fibre {i | i 0 = q}; so the totals of the eight blocks add up to the sum over that fibre, which
    is what a sum across the axes 1, 2, 3, 4 reads at q.
  Addition of extended reals is commutative and associative, so neither step needs finiteness.
-/
import Idealize.ShloMosaic.PureOps.Ideal.Laws
import Idealize.ShloMosaic.Lib.IdealHost

noncomputable section

namespace Cert.SumLaw

open Idealize.ShloMosaic

abbrev A5 : Shape := ⟨5, ![4, 1, 192, 192, 192]⟩
abbrev B5 : Shape := ⟨5, ![1, 1, 24, 192, 192]⟩
abbrev B4 : Shape := ⟨4, ![1, 1, 24, 192]⟩
abbrev B3 : Shape := ⟨3, ![1, 1, 24]⟩
abbrev B2 : Shape := ⟨2, ![1, 1]⟩
abbrev B1 : Shape := ⟨1, ![1]⟩
abbrev O4 : Shape := ⟨1, ![4]⟩

/-- Summing over the fibres of a reduction and then over the reduced indices is summing over everything. -/
theorem sum_reduceAdd {s t : Shape} {axes : List (Fin s.rank)} (h : s.Reduces axes t) (x : s.Idx → EReal) :
    ∑ j : t.Idx, Ideal.reduceAdd h x j = ∑ i : s.Idx, x i := by
  -- every source index lies in exactly one fibre of the drop
  unfold Ideal.reduceAdd
  exact Finset.sum_fiberwise Finset.univ h.drop x

/-- A block summed along axis 4, then 3, then 2, then 1 is the total of its entries. -/
theorem nested_total (x : FVec Ideal B5 .f32) (h4 : B5.Reduces [4] B4) (h3 : B4.Reduces [3] B3) (h2 : B3.Reduces [2] B2)
    (h1 : B2.Reduces [1] B1) (hφ : FKind.Formats .f32) (hacc : (0x00000000#32 : BitVec 32) = FKind.add.neutral .f32 hφ)
    (j : B1.Idx) :
    multiReduction .add [1] B1
      (multiReduction .add [2] B2
        (multiReduction .add [3] B3
          (multiReduction .add [4] B4 x 0x00000000#32 h4 hφ hacc) 0x00000000#32 h3 hφ hacc) 0x00000000#32 h2 hφ hacc)
      0x00000000#32 h1 hφ hacc j
      = ∑ i : B5.Idx, x i := by
  -- the last reduction lands in a shape whose one axis has size one: it is the total of its operand;
  -- each earlier reduction is a sum over fibres, so its total is the total of its own operand
  rw [Ideal.multiReduction_add_total _ _ h1 (fun b => by fin_cases b; rfl) hφ hacc j]
  exact (sum_reduceAdd h2 _).trans ((sum_reduceAdd h3 _).trans (sum_reduceAdd h4 x))

/-- The entry of a block that an array index falls on: its coordinates inside the block. -/
private def inBlock (i : A5.Idx) : B5.Idx :=
  fun a => match a with
    | ⟨0, _⟩ => ⟨0, Nat.one_pos⟩
    | ⟨1, _⟩ => ⟨0, Nat.one_pos⟩
    | ⟨2, _⟩ => ⟨(i 2).val % 24, Nat.mod_lt _ (by decide)⟩
    | ⟨3, _⟩ => ⟨(i 3).val, (i 3).isLt⟩
    | ⟨4, _⟩ => ⟨(i 4).val, (i 4).isLt⟩

/-- An index drops to j across the axes 1 to 4 exactly when its leading coordinate is j's. -/
private theorem drop_eq_iff (h' : A5.ReducesTo [1, 2, 3, 4] O4) (i : A5.Idx) (j : O4.Idx) :
    h'.drop i = j ↔ (i 0).val = (j 0).val := by
  constructor
  · intro e
    rw [← e]
    exact (h'.drop_apply_val_of_eq i 0 0).symm
  · intro e
    funext b
    have hb : b = 0 := Subsingleton.elim _ _
    subst hb
    exact Fin.ext ((h'.drop_apply_val_of_eq i 0 0).trans e)

/-- The eight blocks of batch q tile its fibre: their totals add up to the sum across the axes 1 to 4 at q.
    E s y is where entry y of block (q, 0, s, 0, 0) sits in the array: on each axis the block index times the block's
    extent plus the coordinate inside the block. -/
theorem total_of_blocks (X : A5.Idx → EReal) (h' : A5.ReducesTo [1, 2, 3, 4] O4) (j : O4.Idx)
    (E : ℕ → B5.Idx → A5.Idx)
    (hE : ∀ s, s < 8 → ∀ (y : B5.Idx) (a : Fin 5),
      ((E s y) a).val = (![(j 0).val, 0, s, 0, 0] : Fin 5 → ℕ) a * (![1, 1, 24, 192, 192] : Fin 5 → ℕ) a + (y a).val) :
    (0 : EReal) + ∑ s ∈ Finset.range 8, ∑ y : B5.Idx, X (E s y) = Ideal.hostReduceAdd h' X 0 j := by
  unfold Ideal.hostReduceAdd
  congr 1
  rw [← Finset.sum_product' (Finset.range 8) (Finset.univ : Finset B5.Idx) (fun s y => X (E s y))]
  -- coordinates of E s y, one axis at a time
  have c0 : ∀ s, s < 8 → ∀ y : B5.Idx, ((E s y) 0).val = (j 0).val := fun s hs y => by
    have := hE s hs y 0
    have hy : (y 0).val < 1 := (y 0).isLt
    simp at this; omega
  have c1 : ∀ s, s < 8 → ∀ y : B5.Idx, ((E s y) 1).val = 0 := fun s hs y => by
    have := hE s hs y 1
    have hy : (y 1).val < 1 := (y 1).isLt
    simp at this; omega
  have c2 : ∀ s, s < 8 → ∀ y : B5.Idx, ((E s y) 2).val = s * 24 + (y 2).val := fun s hs y => by
    have := hE s hs y 2
    simpa using this
  have c3 : ∀ s, s < 8 → ∀ y : B5.Idx, ((E s y) 3).val = (y 3).val := fun s hs y => by
    have := hE s hs y 3
    simpa using this
  have c4 : ∀ s, s < 8 → ∀ y : B5.Idx, ((E s y) 4).val = (y 4).val := fun s hs y => by
    have := hE s hs y 4
    simpa using this
  refine Finset.sum_nbij' (fun p => E p.1 p.2) (fun i => ((i 2).val / 24, inBlock i)) ?_ ?_ ?_ ?_ ?_
  · -- E s y lies in the fibre: its leading coordinate is j's
    intro p hp
    have hs := Finset.mem_range.1 (Finset.mem_product.1 hp).1
    exact Finset.mem_filter.2 ⟨Finset.mem_univ _, (drop_eq_iff h' _ j).2 (c0 _ hs _)⟩
  · -- the block number of an index is below 8
    intro i _
    refine Finset.mem_product.2 ⟨Finset.mem_range.2 ?_, Finset.mem_univ _⟩
    have h2 : (i 2).val < 192 := (i 2).isLt
    show (i 2).val / 24 < 8
    omega
  · -- block number and in-block entry of E s y are s and y
    rintro ⟨s, y⟩ hp
    have hs := Finset.mem_range.1 (Finset.mem_product.1 hp).1
    refine Prod.ext ?_ ?_
    · show ((E s y) 2).val / 24 = s
      rw [c2 s hs y]
      have h2 : (y 2).val < 24 := (y 2).isLt
      omega
    · funext a
      apply Fin.ext
      match a with
      | ⟨0, _⟩ =>
        show 0 = (y 0).val
        have h0 : (y 0).val < 1 := (y 0).isLt
        omega
      | ⟨1, _⟩ =>
        show 0 = (y 1).val
        have h1 : (y 1).val < 1 := (y 1).isLt
        omega
      | ⟨2, _⟩ =>
        show ((E s y) 2).val % 24 = (y 2).val
        rw [c2 s hs y]
        have h2 : (y 2).val < 24 := (y 2).isLt
        omega
      | ⟨3, _⟩ => exact c3 s hs y
      | ⟨4, _⟩ => exact c4 s hs y
  · -- an index of the fibre is E at its block number and in-block entry
    intro i hi
    have h0 := (drop_eq_iff h' i j).1 (Finset.mem_filter.1 hi).2
    have h2 : (i 2).val < 192 := (i 2).isLt
    have hs : (i 2).val / 24 < 8 := by omega
    funext a
    apply Fin.ext
    match a with
    | ⟨0, _⟩ => exact (c0 _ hs _).trans h0.symm
    | ⟨1, _⟩ =>
      show ((E ((i 2).val / 24) (inBlock i)) 1).val = (i 1).val
      rw [c1 _ hs]
      have h1 : (i 1).val < 1 := (i 1).isLt
      omega
    | ⟨2, _⟩ =>
      refine (c2 _ hs _).trans ?_
      show (i 2).val / 24 * 24 + (i 2).val % 24 = (i 2).val
      omega
    | ⟨3, _⟩ => exact c3 _ hs _
    | ⟨4, _⟩ => exact c4 _ hs _
  · intro p _
    rfl

end Cert.SumLaw

end
-- ==== Proof.BlockTotals.lean ====
/-
  The body's stored values at the ideal instance, read at their one index: a block total is the sum of the block's
  entries (of x1, of x0, of x1·x1, of x0·x0, of x1·x0 for the five outputs), whichever order the four axes are summed
  in; an accumulating point adds it to what the output block held.
-/
import proofs.«174523_j64441689309643_1_alg».proof.Proof.HandKernelIdeal.Runs
import proofs.«174523_j64441689309643_1_alg».proof.Proof.SumLaw
import Idealize.ShloMosaic.Lib.Pipeline.Value
import Idealize.ShloMosaic.Lib.ValueIdx
import Idealize.ShloMosaic.Lib.ValueLayout

noncomputable section

namespace Cert.Hand.BlockTotals

open Cert.KernelIdeal Cert.KernelIdeal.Gen Cert.Hand.KernelIdeal
open Idealize.ShloMosaic Idealize.ShloMosaic.TcCoe

variable (x0 x1 : FVec Ideal S1x1x24x192x192 .f32) (a : FVec Ideal S1x1x1 .f32) (y : S1x1x1.Idx)

/-- The zero offsets of a one-element block's rectangle, however they are spelt. -/
private theorem hz3 : (![0, 0, 0] : Fin 3 → ℕ) = fun _ => 0 := funext fun a => by fin_cases a <;> rfl
/-- The same for an input block's rectangle. -/
private theorem hz5 : (![0, 0, 0, 0, 0] : Fin 5 → ℕ) = fun _ => 0 := funext fun a => by fin_cases a <;> rfl

/-- The four reductions in turn, then the cast to the one-element block, read at its index: the block's total.
    The cast reads some index of the one-element vector, and the nested reductions are the total at every index. -/
private theorem total_apply (x : FVec Ideal S1x1x24x192x192 .f32) (y : S1x1x1.Idx) :
    shapeCast S1x1x1
      (multiReduction .add [1] S1
        (multiReduction .add [2] S1x1
          (multiReduction .add [3] S1x1x24
            (multiReduction .add [4] S1x1x24x192 x 0x00000000#32 reduces_S1x1x24x192x192_S1x1x24x192 (.inl rfl) rfl)
            0x00000000#32 reduces_S1x1x24x192_S1x1x24 (.inl rfl) rfl)
          0x00000000#32 reduces_S1x1x24_S1x1 (.inl rfl) rfl)
        0x00000000#32 reduces_S1x1_S1 (.inl rfl) rfl)
      shapeCasts_S1_S1x1x1 y
    = ∑ i : S1x1x24x192x192.Idx, x i := by
  unfold shapeCast
  exact Cert.SumLaw.nested_total x _ _ _ _ (.inl rfl) rfl _

theorem first2_apply : first2 (F := Ideal) x0 x1 y = ∑ i : S1x1x24x192x192.Idx, x1 i := by
  -- the one store covers the block and the load reads the whole input block
  unfold first2 tot2
  rw [View.canon_unit_zero hz3, View.ld_unit_zero (S := S1x1x24x192x192) hz5]
  exact total_apply x1 y
theorem first3_apply : first3 (F := Ideal) x0 x1 y = ∑ i : S1x1x24x192x192.Idx, x0 i := by
  -- the one store covers the block and the load reads the whole input block
  unfold first3 tot3
  rw [View.canon_unit_zero hz3, View.ld_unit_zero (S := S1x1x24x192x192) hz5]
  exact total_apply x0 y
theorem first4_apply : first4 (F := Ideal) x0 x1 y = ∑ i : S1x1x24x192x192.Idx, mulf x1 x1 i := by
  -- the one store covers the block and the load reads the whole input block
  unfold first4 tot4
  rw [View.canon_unit_zero hz3, View.ld_unit_zero (S := S1x1x24x192x192) hz5]
  exact total_apply (mulf x1 x1) y
theorem first5_apply : first5 (F := Ideal) x0 x1 y = ∑ i : S1x1x24x192x192.Idx, mulf x0 x0 i := by
  -- the one store covers the block and the load reads the whole input block
  unfold first5 tot5
  rw [View.canon_unit_zero hz3, View.ld_unit_zero (S := S1x1x24x192x192) hz5]
  exact total_apply (mulf x0 x0) y
theorem first6_apply : first6 (F := Ideal) x0 x1 y = ∑ i : S1x1x24x192x192.Idx, mulf x1 x0 i := by
  -- the one store covers the block and the load reads the whole input block
  unfold first6 tot6
  rw [View.canon_unit_zero hz3, View.ld_unit_zero (S := S1x1x24x192x192) hz5, View.ld_unit_zero (S := S1x1x24x192x192) hz5]
  exact total_apply (mulf x1 x0) y

theorem next2_apply : next2 (F := Ideal) a x0 x1 y = a y + ∑ i : S1x1x24x192x192.Idx, x1 i := by
  -- as above; the cast of what the block held to its own shape is the identity, and the sum is the extended reals'
  unfold next2 tot2
  rw [View.canon_unit_zero hz3, View.ld_unit_zero (S := S1x1x24x192x192) hz5, View.ld_unit_zero (S := S1x1x1) hz3]
  unfold k0_pay2
  show (shapeCast S1x1x1 a shapeCasts_S1x1x1_S1x1x1) y + k0_pay7 x1 y = _
  rw [shapeCast_self]
  exact congrArg (a y + ·) (total_apply x1 y)
theorem next3_apply : next3 (F := Ideal) a x0 x1 y = a y + ∑ i : S1x1x24x192x192.Idx, x0 i := by
  -- as above; the cast of what the block held to its own shape is the identity, and the sum is the extended reals'
  unfold next3 tot3
  rw [View.canon_unit_zero hz3, View.ld_unit_zero (S := S1x1x24x192x192) hz5, View.ld_unit_zero (S := S1x1x1) hz3]
  unfold k0_pay3
  show (shapeCast S1x1x1 a shapeCasts_S1x1x1_S1x1x1) y + k0_pay8 x0 y = _
  rw [shapeCast_self]
  exact congrArg (a y + ·) (total_apply x0 y)
theorem next4_apply : next4 (F := Ideal) a x0 x1 y = a y + ∑ i : S1x1x24x192x192.Idx, mulf x1 x1 i := by
  -- as above; the cast of what the block held to its own shape is the identity, and the sum is the extended reals'
  unfold next4 tot4
  rw [View.canon_unit_zero hz3, View.ld_unit_zero (S := S1x1x24x192x192) hz5, View.ld_unit_zero (S := S1x1x1) hz3]
  unfold k0_pay4
  show (shapeCast S1x1x1 a shapeCasts_S1x1x1_S1x1x1) y + k0_pay9 x1 y = _
  rw [shapeCast_self]
  exact congrArg (a y + ·) (total_apply (mulf x1 x1) y)
theorem next5_apply : next5 (F := Ideal) a x0 x1 y = a y + ∑ i : S1x1x24x192x192.Idx, mulf x0 x0 i := by
  -- as above; the cast of what the block held to its own shape is the identity, and the sum is the extended reals'
  unfold next5 tot5
  rw [View.canon_unit_zero hz3, View.ld_unit_zero (S := S1x1x24x192x192) hz5, View.ld_unit_zero (S := S1x1x1) hz3]
  unfold k0_pay5
  show (shapeCast S1x1x1 a shapeCasts_S1x1x1_S1x1x1) y + k0_pay10 x0 y = _
  rw [shapeCast_self]
  exact congrArg (a y + ·) (total_apply (mulf x0 x0) y)
theorem next6_apply : next6 (F := Ideal) a x0 x1 y = a y + ∑ i : S1x1x24x192x192.Idx, mulf x1 x0 i := by
  -- as above; the cast of what the block held to its own shape is the identity, and the sum is the extended reals'
  unfold next6
  rw [View.canon_unit_zero hz3, View.ld_unit_zero (S := S1x1x24x192x192) hz5, View.ld_unit_zero (S := S1x1x24x192x192) hz5, View.ld_unit_zero (S := S1x1x1) hz3]
  unfold k0_pay6
  show (shapeCast S1x1x1 a shapeCasts_S1x1x1_S1x1x1) y + k0_pay1 (k0_pay11 x0 x1) y = _
  rw [shapeCast_self]
  exact congrArg (a y + ·) (total_apply (mulf x1 x0) y)

end Cert.Hand.BlockTotals

end
-- ==== Proof.Value.Common.lean ====
/-
  The kernel's value, the part the five outputs share.

  For every float instance: the host lines after the region are the shared scalar algebra applied to the five output
  arrays, each read as a vector of four. At the ideal instance: where the input blocks sit in the argument arrays (point
  t = 8·b + d reads block (b, 0, d, 0, 0) through either input window), and the reference's sum across the axes 1 to 4.
-/
import proofs.«174523_j64441689309643_1_alg».proof.Proof.HandKernelIdeal.Body
import proofs.«174523_j64441689309643_1_alg».proof.Proof.Tail
import proofs.«174523_j64441689309643_1_alg».proof.Proof.SumLaw
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«174523_j64441689309643_1_alg».proof.Proof.BlockTotals

set_option maxRecDepth 16384

noncomputable section

namespace Cert.Hand.KernelValue

open Cert.KernelIdeal Cert.KernelIdeal.Gen Cert.Hand.KernelIdeal
open Idealize.ShloMosaic Idealize.ShloMosaic.TcCoe Idealize.ShloMosaic.Tactic Idealize.ShloMosaic.StableHlo
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ## The lines after the region, for every float instance -/

/-- The five output arrays after the region, at their literal type. -/
abbrev o2 (c : Dev nD) : FVec F S4x1x1 .f32 := (dats m 0 c).arrAt 2 cfg0.N
abbrev o3 (c : Dev nD) : FVec F S4x1x1 .f32 := (dats m 0 c).arrAt 3 cfg0.N
abbrev o4 (c : Dev nD) : FVec F S4x1x1 .f32 := (dats m 0 c).arrAt 4 cfg0.N
abbrev o5 (c : Dev nD) : FVec F S4x1x1 .f32 := (dats m 0 c).arrAt 5 cfg0.N
abbrev o6 (c : Dev nD) : FVec F S4x1x1 .f32 := (dats m 0 c).arrAt 6 cfg0.N

/-- A [4, 1, 1] array read as a vector of four. -/
abbrev r4 (x : FVec F S4x1x1 .f32) : FVec F S4 .f32 := shapeCast S4 x shapeCasts_S4x1x1_S4

set_option maxHeartbeats 4000000 in
/-- What the host lines after the region leave in the result buffer: the shared scalar algebra of the five output
    arrays, each read as a vector of four. -/
theorem tail_eq (c : Dev nD) :
    Pipeline.afterTail₀ cfgs (dats m) 0 (V0 m) [hostOps1] c main_v39
      = Cert.Tail.cc bcast_S_S4 (r4 (o2 m c)) (r4 (o3 m c)) (r4 (o4 m c)) (r4 (o5 m c)) (r4 (o6 m c)) := by
  have e2 : Pipeline.withArrays (cfgs 0).spec c (V0 m c) (fun w => (dats m 0 c).arrAt w (cfgs 0).N) (Proc.devRef .tc main_v0_0)
      = o2 m c := Pipeline.withArrays_arr spec0 launch0.win.arr_inj c _ _ 2
  have e3 : Pipeline.withArrays (cfgs 0).spec c (V0 m c) (fun w => (dats m 0 c).arrAt w (cfgs 0).N) (Proc.devRef .tc main_v0_1)
      = o3 m c := Pipeline.withArrays_arr spec0 launch0.win.arr_inj c _ _ 3
  have e4 : Pipeline.withArrays (cfgs 0).spec c (V0 m c) (fun w => (dats m 0 c).arrAt w (cfgs 0).N) (Proc.devRef .tc main_v0_2)
      = o4 m c := Pipeline.withArrays_arr spec0 launch0.win.arr_inj c _ _ 4
  have e5 : Pipeline.withArrays (cfgs 0).spec c (V0 m c) (fun w => (dats m 0 c).arrAt w (cfgs 0).N) (Proc.devRef .tc main_v0_3)
      = o5 m c := Pipeline.withArrays_arr spec0 launch0.win.arr_inj c _ _ 5
  have e6 : Pipeline.withArrays (cfgs 0).spec c (V0 m c) (fun w => (dats m 0 c).arrAt w (cfgs 0).N) (Proc.devRef .tc main_v0_4)
      = o6 m c := Pipeline.withArrays_arr spec0 launch0.win.arr_inj c _ _ 6
  unfold Pipeline.afterTail₀
  show StableHlo.after hostOps1 _ (Proc.devRef .tc main_v39) = _
  after_results_simp
  rw [e2, e3, e4, e5, e6]
  rfl

/-- The result buffer bypasses the region: it is unscoped and no window's array. -/
theorem v39_rest : main_v39 ∈ Pipeline.restRefs sig cfg0.spec :=
  Pipeline.mem_restRefs_of main_v39 rfl (by decide)

/-- The run re-posted: the result at the scalar algebra of the five output arrays, the arguments unchanged. -/
theorem run_tail : θ_run defs (onTc (τ := τ) (main (F := F))) ⟨m, fun _ => 0, ρ⟩ (fun r => ∀ c : Dev nD,
      r.2.mem ((c.tc : Thread nD τ).loc main_v39)
          = Cert.Tail.cc bcast_S_S4 (r4 (o2 m c)) (r4 (o3 m c)) (r4 (o4 m c)) (r4 (o5 m c)) (r4 (o6 m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v39 v39_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-! ## The ideal instance: each output array is the reference's sum -/

section Ideal

variable (m : (ℓ : Loc nD τ sig) → Buf (Elt Ideal) ℓ)

/-- The two argument arrays (argument 0 is y_pred, argument 1 y_true). -/
abbrev a0 (c : Dev nD) : FVec Ideal S4x1x192x192x192 .f32 := m ((c.tc : Thread nD τ).loc main_arg0)
abbrev a1 (c : Dev nD) : FVec Ideal S4x1x192x192x192 .f32 := m ((c.tc : Thread nD τ).loc main_arg1)

theorem hRed : S4x1x192x192x192.ReducesTo [1, 2, 3, 4] S4 := by decide

/-- The sum across the axes 1 to 4 from the zero word. -/
abbrev total (X : FVec Ideal S4x1x192x192x192 .f32) : FVec Ideal S4 .f32 :=
  Host.reduceAdd X (constant S_ .f32 0x00000000#32) hRed (by decide)

/-- The printed index maps over the grid: point t = 8·b + d reads block (b, 0, d, 0, 0) of either input and writes
    block (b, 0, 0) of each output. -/
theorem idx_in : ∀ t : Fin cfg0.N, win0_0.index t = ![t.val / 8, 0, t.val % 8, 0, 0]
    ∧ win0_1.index t = ![t.val / 8, 0, t.val % 8, 0, 0] :=
  (by decide +kernel : ∀ t : Fin grid0.N, win0_0.index t = ![t.val / 8, 0, t.val % 8, 0, 0]
    ∧ win0_1.index t = ![t.val / 8, 0, t.val % 8, 0, 0])
theorem idx_out : ∀ t : Fin cfg0.N, win0_2.index t = ![t.val / 8, 0, 0] ∧ win0_3.index t = ![t.val / 8, 0, 0]
    ∧ win0_4.index t = ![t.val / 8, 0, 0] ∧ win0_5.index t = ![t.val / 8, 0, 0] ∧ win0_6.index t = ![t.val / 8, 0, 0] :=
  (by decide +kernel : ∀ t : Fin grid0.N, win0_2.index t = ![t.val / 8, 0, 0] ∧ win0_3.index t = ![t.val / 8, 0, 0]
    ∧ win0_4.index t = ![t.val / 8, 0, 0] ∧ win0_5.index t = ![t.val / 8, 0, 0] ∧ win0_6.index t = ![t.val / 8, 0, 0])

/-- Where entry y of the input block at point t sits in the argument array, through either input window. -/
abbrev E0 (t : Fin cfg0.N) (y : S1x1x24x192x192.Idx) : S4x1x192x192x192.Idx := ((cfg0.win 0).blk t).view.emb y
abbrev E1 (t : Fin cfg0.N) (y : S1x1x24x192x192.Idx) : S4x1x192x192x192.Idx := ((cfg0.win 1).blk t).view.emb y

theorem E0_val (t : Fin cfg0.N) (y : S1x1x24x192x192.Idx) :
    ((E0 t y) 0).val = t.val / 8 * 1 + (y 0).val ∧ ((E0 t y) 1).val = 0 * 1 + (y 1).val
    ∧ ((E0 t y) 2).val = t.val % 8 * 24 + (y 2).val ∧ ((E0 t y) 3).val = 0 * 192 + (y 3).val
    ∧ ((E0 t y) 4).val = 0 * 192 + (y 4).val := by
  obtain ⟨e0, -⟩ := idx_in t
  have q0 : win0_0.index t (0 : Fin 5) = t.val / 8 := congrFun e0 0
  have q1 : win0_0.index t (1 : Fin 5) = 0 := congrFun e0 1
  have q2 : win0_0.index t (2 : Fin 5) = t.val % 8 := congrFun e0 2
  have q3 : win0_0.index t (3 : Fin 5) = 0 := congrFun e0 3
  have q4 : win0_0.index t (4 : Fin 5) = 0 := congrFun e0 4
  refine ⟨?_, ?_, ?_, ?_, ?_⟩
  · show win0_0.index t (0 : Fin 5) * 1 + 1 * (y 0).val = _; omega
  · show win0_0.index t (1 : Fin 5) * 1 + 1 * (y 1).val = _; omega
  · show win0_0.index t (2 : Fin 5) * 24 + 1 * (y 2).val = _; omega
  · show win0_0.index t (3 : Fin 5) * 192 + 1 * (y 3).val = _; omega
  · show win0_0.index t (4 : Fin 5) * 192 + 1 * (y 4).val = _; omega

theorem E1_eq (t : Fin cfg0.N) (y : S1x1x24x192x192.Idx) : E1 t y = E0 t y := by
  obtain ⟨e0, e1⟩ := idx_in t
  funext a; apply Fin.ext
  match a with
  | ⟨0, _⟩ => show win0_1.index t (0 : Fin 5) * 1 + 1 * (y 0).val = win0_0.index t (0 : Fin 5) * 1 + 1 * (y 0).val; rw [e0, e1]
  | ⟨1, _⟩ => show win0_1.index t (1 : Fin 5) * 1 + 1 * (y 1).val = win0_0.index t (1 : Fin 5) * 1 + 1 * (y 1).val; rw [e0, e1]
  | ⟨2, _⟩ => show win0_1.index t (2 : Fin 5) * 24 + 1 * (y 2).val = win0_0.index t (2 : Fin 5) * 24 + 1 * (y 2).val; rw [e0, e1]
  | ⟨3, _⟩ => show win0_1.index t (3 : Fin 5) * 192 + 1 * (y 3).val = win0_0.index t (3 : Fin 5) * 192 + 1 * (y 3).val; rw [e0, e1]
  | ⟨4, _⟩ => show win0_1.index t (4 : Fin 5) * 192 + 1 * (y 4).val = win0_0.index t (4 : Fin 5) * 192 + 1 * (y 4).val; rw [e0, e1]

/-- An input block's entry is the argument array's entry where the block sits. -/
theorem xb0_apply (c : Dev nD) (t : Fin cfg0.N) (y : S1x1x24x192x192.Idx) : xb0 m c t y = a0 m c (E0 t y) := rfl
theorem xb1_apply (c : Dev nD) (t : Fin cfg0.N) (y : S1x1x24x192x192.Idx) : xb1 m c t y = a1 m c (E0 t y) :=
  (show xb1 m c t y = a1 m c (E1 t y) from rfl).trans (congrArg (a1 m c) (E1_eq t y))

end Ideal

end Cert.Hand.KernelValue

end
-- ==== Proof.Value.Out0.lean ====
/-
  Output 0 of the kernel at the ideal instance: the [4, 1, 1] array that accumulates the block totals of its summand ends,
  at (b, 0, 0), at the sum of the summand across the axes 1 to 4 at b. The last point of run b holds the sum of the run's
  eight addends (the first point stores, the later ones add); an addend is the summand's sum over the block's place in the
  argument array; the eight places tile the fibre {i | i 0 = b}.
-/
import proofs.«174523_j64441689309643_1_alg».proof.Proof.Value.Common

set_option maxRecDepth 16384

noncomputable section

namespace Cert.Hand.KernelValue

open Cert.KernelIdeal Cert.KernelIdeal.Gen Cert.Hand.KernelIdeal
open Idealize.ShloMosaic Idealize.ShloMosaic.TcCoe Idealize.ShloMosaic.Tactic Idealize.ShloMosaic.StableHlo
open Idealize.SL Idealize.SL.Sem
open Idealize.ShloMosaic.Pipeline (Dat Cfg Window)

variable (m : (ℓ : Loc nD τ sig) → Buf (Elt Ideal) ℓ)

/-! ### The summand -/

/-- Output 0 sums y_true: its summand over the argument arrays, -/
abbrev X2 (c : Dev nD) : FVec Ideal S4x1x192x192x192 .f32 := a1 m c
/-- over the two input blocks at a point, -/
abbrev f2 (c : Dev nD) (t : Fin cfg0.N) : FVec Ideal S1x1x24x192x192 .f32 := xb1 m c t
/-- and the second is the first where the block sits in the arrays. -/
theorem f2_apply (c : Dev nD) (t : Fin cfg0.N) (i : S1x1x24x192x192.Idx) : f2 m c t i = X2 m c (E0 t i) :=
  xb1_apply m c t i

/-! ### The accumulation -/

/-- What point n adds to the output's block: the total of the summand over the input blocks at n (nothing past the grid). -/
def M2 (c : Dev nD) (n : ℕ) : S1x1x1.Idx → EReal := fun _ =>
  if h : n < cfg0.N then ∑ i : S1x1x24x192x192.Idx, f2 m c ⟨n, h⟩ i else 0

/-- At the last point of a run of eight the block holds the sum of the run's eight addends: the run's first point stores
    its addend, each later one adds its own. -/
theorem acc2_fold (c : Dev nD) (t : Fin cfg0.N) (h7 : t.val % 8 = 7) (y : S1x1x1.Idx) :
    acc2 m c t.val t.isLt y = 0 + ∑ s ∈ Finset.range 8, M2 m c (8 * (t.val / 8) + s) y := by
  have h' : 8 * (t.val / 8) + t.val % 8 < cfg0.N := by rw [Nat.div_add_mod]; exact t.isLt
  rw [Pipeline.eq_accAt_of_mod (acc2 m c) 8
    (fun n hn => first2 (xb0 m c ⟨n, hn⟩) (xb1 m c ⟨n, hn⟩))
    (fun n hn prev => next2 prev (xb0 m c ⟨n, hn⟩) (xb1 m c ⟨n, hn⟩))
    (fun n hn h0 => acc2_first m c ⟨n, hn⟩ h0) (fun n hn h0 => acc2_next m c ⟨n + 1, hn⟩ h0)
    (by norm_num) t.val t.isLt h']
  refine (Pipeline.accAt_add_apply (ι := S1x1x1.Idx) (β := EReal) _ _ (fun _ => 0) (M2 m c) (8 * (t.val / 8)) 7
    (fun hb i => ?_) (fun n hn acc i _ _ => ?_) (t.val % 8) (by omega) h' y).trans (by rw [h7])
  · rw [Cert.Hand.BlockTotals.first2_apply, zero_add]; unfold M2; rw [dif_pos hb]
  · rw [Cert.Hand.BlockTotals.next2_apply]; unfold M2; rw [dif_pos hn]

/-- An addend is the sum of the argument's entries over the block's place in the array. -/
theorem M2_eq (c : Dev nD) (t : Fin cfg0.N) (y : S1x1x1.Idx) :
    M2 m c t.val y = ∑ i : S1x1x24x192x192.Idx, (X2 m c) (E0 t i) := by
  unfold M2; rw [dif_pos t.isLt]
  exact Finset.sum_congr rfl fun i _ => f2_apply m c t i

/-- What the output array ends holding: at (b, 0, 0) the sum across the axes 1 to 4 at b. -/
abbrev G2 (c : Dev nD) : FVec Ideal S4x1x1 .f32 := fun i => total (X2 m c) (ValueIdx.ix1 (i 0))

/-- What a point that writes the output's block back writes is its block of that array. -/
theorem flushed2_eq (c : Dev nD) (t : Fin cfg0.N) (hf : (cfg0.win 2).flush t = true) :
    (dats m 0 c).flushed 2 t = ((cfg0.win 2).blk t).view.read (Elt Ideal) (G2 m c) := by
  have h7 : t.val % 8 = 7 := (flush0_2 t).mp hf
  have hN : t.val < 32 := lt_of_lt_of_eq t.isLt (show cfg0.N = 32 from N_0)
  show (cfg0.win 2).cut (grid0.coords t) ((dats m 0 c).after 2 t) = _
  rw [after0_2]
  funext y
  show acc2 m c t.val t.isLt y = total (X2 m c) (ValueIdx.ix1 ((((cfg0.win 2).blk t).view.emb y) 0))
  rw [acc2_fold m c t h7 y]
  refine Eq.trans ?_ (ValueIdx.hostReduceAdd_apply (X2 m c) (constant (F := Ideal) S_ .f32 0x00000000#32) hRed
    (by decide) _).symm
  have hz : (constant (F := Ideal) S_ .f32 0x00000000#32) (Shape.Idx.first (by decide : 0 < S_.numel)) = (0 : EReal) :=
    Ideal.ofBits_zero_f32
  rw [hz]
  have hlt : ∀ s, s < 8 → 8 * (t.val / 8) + s < cfg0.N := fun s hs =>
    lt_of_lt_of_eq (show 8 * (t.val / 8) + s < 32 by omega) N_0.symm
  rw [← Cert.SumLaw.total_of_blocks (X2 m c) hRed _
    (fun s i => if h : 8 * (t.val / 8) + s < cfg0.N then E0 ⟨8 * (t.val / 8) + s, h⟩ i else E0 t i)
    (fun s hs i a => ?_)]
  · congr 1
    refine Finset.sum_congr rfl fun s hs => ?_
    have hs8 : s < 8 := Finset.mem_range.mp hs
    rw [show M2 m c (8 * (t.val / 8) + s) y = M2 m c (⟨8 * (t.val / 8) + s, hlt s hs8⟩ : Fin cfg0.N).val y from rfl,
      M2_eq]
    exact Finset.sum_congr rfl fun i _ => by rw [dif_pos (hlt s hs8)]
  · obtain ⟨e2, e3, e4, e5, e6⟩ := idx_out t
    have q0 : win0_2.index t (0 : Fin 3) = t.val / 8 := congrFun e2 0
    have hj : ((ValueIdx.ix1 ((((cfg0.win 2).blk t).view.emb y) 0) : S4.Idx) 0).val = t.val / 8 := by
      show win0_2.index t (0 : Fin 3) * 1 + 1 * (y 0).val = _
      have := (y 0).isLt
      have h1 : (y 0).val < 1 := this
      omega
    rw [dif_pos (hlt s hs)]
    obtain ⟨v0, v1, v2, v3, v4⟩ := E0_val (⟨8 * (t.val / 8) + s, hlt s hs⟩ : Fin cfg0.N) i
    have d8 : (8 * (t.val / 8) + s) / 8 = t.val / 8 := by omega
    have m8 : (8 * (t.val / 8) + s) % 8 = s := by omega
    match a with
    | ⟨0, _⟩ => show ((E0 ⟨8 * (t.val / 8) + s, hlt s hs⟩ i) 0).val = ((ValueIdx.ix1 ((((cfg0.win 2).blk t).view.emb y) 0) : S4.Idx) 0).val * 1 + (i 0).val; rw [v0, hj]; dsimp only; rw [d8]
    | ⟨1, _⟩ => show ((E0 ⟨8 * (t.val / 8) + s, hlt s hs⟩ i) 1).val = 0 * 1 + (i 1).val; exact v1
    | ⟨2, _⟩ => show ((E0 ⟨8 * (t.val / 8) + s, hlt s hs⟩ i) 2).val = s * 24 + (i 2).val; rw [v2]; dsimp only; rw [m8]
    | ⟨3, _⟩ => show ((E0 ⟨8 * (t.val / 8) + s, hlt s hs⟩ i) 3).val = 0 * 192 + (i 3).val; exact v3
    | ⟨4, _⟩ => show ((E0 ⟨8 * (t.val / 8) + s, hlt s hs⟩ i) 4).val = 0 * 192 + (i 4).val; exact v4

/-- An index of the output array is in point t's block iff each coordinate is in the block's range on its axis. -/
theorem mem_blk2 (t : Fin cfg0.N) (i : S4x1x1.Idx) :
    i ∈ ((cfg0.win 2).blk t).view.set
      ↔ ∀ a : Fin 3, win0_2.index t a * S1x1x1.size a ≤ (i a).val ∧ (i a).val < win0_2.index t a * S1x1x1.size a + S1x1x1.size a := by
  show i ∈ ((View.whole main_v0_0).slice (win0_2.rect t)).set ↔ _
  rw [View.set_slice_whole, Rect.mem_set_unit]
  exact Iff.rfl

/-- Every entry (b, 0, 0) of the output array is in the block the last point of run b writes back. -/
theorem cover2 (i : S4x1x1.Idx) : ∃ t : Fin cfg0.N, (cfg0.win 2).flush t = true ∧ i ∈ ((cfg0.win 2).blk t).view.set := by
  have hi0 : (i 0).val < 4 := (i 0).isLt
  have hi1 : (i 1).val < 1 := (i 1).isLt
  have hi2 : (i 2).val < 1 := (i 2).isLt
  have hN : 8 * (i 0).val + 7 < cfg0.N := lt_of_lt_of_eq (show 8 * (i 0).val + 7 < 32 by omega) N_0.symm
  refine ⟨⟨8 * (i 0).val + 7, hN⟩, (flush0_2 _).mpr (by show (8 * (i 0).val + 7) % 8 = 7; omega), ?_⟩
  obtain ⟨e2, e3, e4, e5, e6⟩ := idx_out ⟨8 * (i 0).val + 7, hN⟩
  have q0 : win0_2.index ⟨8 * (i 0).val + 7, hN⟩ (0 : Fin 3) = (8 * (i 0).val + 7) / 8 := congrFun e2 0
  have q1 : win0_2.index ⟨8 * (i 0).val + 7, hN⟩ (1 : Fin 3) = 0 := congrFun e2 1
  have q2 : win0_2.index ⟨8 * (i 0).val + 7, hN⟩ (2 : Fin 3) = 0 := congrFun e2 2
  rw [mem_blk2]
  intro a
  match a with
  | ⟨0, _⟩ => show win0_2.index ⟨8 * (i 0).val + 7, hN⟩ (0 : Fin 3) * 1 ≤ (i 0).val ∧ (i 0).val < win0_2.index ⟨8 * (i 0).val + 7, hN⟩ (0 : Fin 3) * 1 + 1; omega
  | ⟨1, _⟩ => show win0_2.index ⟨8 * (i 0).val + 7, hN⟩ (1 : Fin 3) * 1 ≤ (i 1).val ∧ (i 1).val < win0_2.index ⟨8 * (i 0).val + 7, hN⟩ (1 : Fin 3) * 1 + 1; omega
  | ⟨2, _⟩ => show win0_2.index ⟨8 * (i 0).val + 7, hN⟩ (2 : Fin 3) * 1 ≤ (i 2).val ∧ (i 2).val < win0_2.index ⟨8 * (i 0).val + 7, hN⟩ (2 : Fin 3) * 1 + 1; omega

/-- The output array, read as a vector of four, is the summand's sum across the axes 1 to 4. -/
theorem sum2 (c : Dev nD) : r4 (o2 m c) = total (X2 m c) := by
  have hfin : o2 m c = G2 m c :=
    (dats m 0 c).arrAt_eq_of_cover 2 (G2 m c) (fun t hf => flushed2_eq m c t hf) cover2
  funext j
  rw [hfin]
  refine (shapeCast_apply (G2 m c) shapeCasts_S4x1x1_S4 j (ValueIdx.ix3 (j 0) 0 0) ?_).trans ?_
  · rw [Shape.rowMajor_val_three, Shape.rowMajor_val_one]
    show ((j 0).val * 1 + 0) * 1 + 0 = (j 0).val
    omega
  · exact congrArg (total (X2 m c)) (ValueIdx.eq_ix1 j).symm

end Cert.Hand.KernelValue

end
-- ==== Proof.Value.Out1.lean ====
/-
  Output 1 of the kernel at the ideal instance: the [4, 1, 1] array that accumulates the block totals of its summand ends,
  at (b, 0, 0), at the sum of the summand across the axes 1 to 4 at b. The last point of run b holds the sum of the run's
  eight addends (the first point stores, the later ones add); an addend is the summand's sum over the block's place in the
  argument array; the eight places tile the fibre {i | i 0 = b}.
-/
import proofs.«174523_j64441689309643_1_alg».proof.Proof.Value.Common

set_option maxRecDepth 16384

noncomputable section

namespace Cert.Hand.KernelValue

open Cert.KernelIdeal Cert.KernelIdeal.Gen Cert.Hand.KernelIdeal
open Idealize.ShloMosaic Idealize.ShloMosaic.TcCoe Idealize.ShloMosaic.Tactic Idealize.ShloMosaic.StableHlo
open Idealize.SL Idealize.SL.Sem
open Idealize.ShloMosaic.Pipeline (Dat Cfg Window)

variable (m : (ℓ : Loc nD τ sig) → Buf (Elt Ideal) ℓ)

/-! ### The summand -/

/-- Output 1 sums y_pred: its summand over the argument arrays, -/
abbrev X3 (c : Dev nD) : FVec Ideal S4x1x192x192x192 .f32 := a0 m c
/-- over the two input blocks at a point, -/
abbrev f3 (c : Dev nD) (t : Fin cfg0.N) : FVec Ideal S1x1x24x192x192 .f32 := xb0 m c t
/-- and the second is the first where the block sits in the arrays. -/
theorem f3_apply (c : Dev nD) (t : Fin cfg0.N) (i : S1x1x24x192x192.Idx) : f3 m c t i = X3 m c (E0 t i) :=
  xb0_apply m c t i

/-! ### The accumulation -/

/-- What point n adds to the output's block: the total of the summand over the input blocks at n (nothing past the grid). -/
def M3 (c : Dev nD) (n : ℕ) : S1x1x1.Idx → EReal := fun _ =>
  if h : n < cfg0.N then ∑ i : S1x1x24x192x192.Idx, f3 m c ⟨n, h⟩ i else 0

/-- At the last point of a run of eight the block holds the sum of the run's eight addends: the run's first point stores
    its addend, each later one adds its own. -/
theorem acc3_fold (c : Dev nD) (t : Fin cfg0.N) (h7 : t.val % 8 = 7) (y : S1x1x1.Idx) :
    acc3 m c t.val t.isLt y = 0 + ∑ s ∈ Finset.range 8, M3 m c (8 * (t.val / 8) + s) y := by
  have h' : 8 * (t.val / 8) + t.val % 8 < cfg0.N := by rw [Nat.div_add_mod]; exact t.isLt
  rw [Pipeline.eq_accAt_of_mod (acc3 m c) 8
    (fun n hn => first3 (xb0 m c ⟨n, hn⟩) (xb1 m c ⟨n, hn⟩))
    (fun n hn prev => next3 prev (xb0 m c ⟨n, hn⟩) (xb1 m c ⟨n, hn⟩))
    (fun n hn h0 => acc3_first m c ⟨n, hn⟩ h0) (fun n hn h0 => acc3_next m c ⟨n + 1, hn⟩ h0)
    (by norm_num) t.val t.isLt h']
  refine (Pipeline.accAt_add_apply (ι := S1x1x1.Idx) (β := EReal) _ _ (fun _ => 0) (M3 m c) (8 * (t.val / 8)) 7
    (fun hb i => ?_) (fun n hn acc i _ _ => ?_) (t.val % 8) (by omega) h' y).trans (by rw [h7])
  · rw [Cert.Hand.BlockTotals.first3_apply, zero_add]; unfold M3; rw [dif_pos hb]
  · rw [Cert.Hand.BlockTotals.next3_apply]; unfold M3; rw [dif_pos hn]

/-- An addend is the sum of the argument's entries over the block's place in the array. -/
theorem M3_eq (c : Dev nD) (t : Fin cfg0.N) (y : S1x1x1.Idx) :
    M3 m c t.val y = ∑ i : S1x1x24x192x192.Idx, (X3 m c) (E0 t i) := by
  unfold M3; rw [dif_pos t.isLt]
  exact Finset.sum_congr rfl fun i _ => f3_apply m c t i

/-- What the output array ends holding: at (b, 0, 0) the sum across the axes 1 to 4 at b. -/
abbrev G3 (c : Dev nD) : FVec Ideal S4x1x1 .f32 := fun i => total (X3 m c) (ValueIdx.ix1 (i 0))

/-- What a point that writes the output's block back writes is its block of that array. -/
theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  have hN : t.val < 32 := lt_of_lt_of_eq t.isLt (show cfg0.N = 32 from N_0)
  show (cfg0.win 3).cut (grid0.coords t) ((dats m 0 c).after 3 t) = _
  rw [after0_3]
  funext y
  show acc3 m c t.val t.isLt y = total (X3 m c) (ValueIdx.ix1 ((((cfg0.win 3).blk t).view.emb y) 0))
  rw [acc3_fold m c t h7 y]
  refine Eq.trans ?_ (ValueIdx.hostReduceAdd_apply (X3 m c) (constant (F := Ideal) S_ .f32 0x00000000#32) hRed
    (by decide) _).symm
  have hz : (constant (F := Ideal) S_ .f32 0x00000000#32) (Shape.Idx.first (by decide : 0 < S_.numel)) = (0 : EReal) :=
    Ideal.ofBits_zero_f32
  rw [hz]
  have hlt : ∀ s, s < 8 → 8 * (t.val / 8) + s < cfg0.N := fun s hs =>
    lt_of_lt_of_eq (show 8 * (t.val / 8) + s < 32 by omega) N_0.symm
  rw [← Cert.SumLaw.total_of_blocks (X3 m c) hRed _
    (fun s i => if h : 8 * (t.val / 8) + s < cfg0.N then E0 ⟨8 * (t.val / 8) + s, h⟩ i else E0 t i)
    (fun s hs i a => ?_)]
  · congr 1
    refine Finset.sum_congr rfl fun s hs => ?_
    have hs8 : s < 8 := Finset.mem_range.mp hs
    rw [show M3 m c (8 * (t.val / 8) + s) y = M3 m c (⟨8 * (t.val / 8) + s, hlt s hs8⟩ : Fin cfg0.N).val y from rfl,
      M3_eq]
    exact Finset.sum_congr rfl fun i _ => by rw [dif_pos (hlt s hs8)]
  · obtain ⟨e2, e3, e4, e5, e6⟩ := idx_out t
    have q0 : win0_3.index t (0 : Fin 3) = t.val / 8 := congrFun e3 0
    have hj : ((ValueIdx.ix1 ((((cfg0.win 3).blk t).view.emb y) 0) : S4.Idx) 0).val = t.val / 8 := by
      show win0_3.index t (0 : Fin 3) * 1 + 1 * (y 0).val = _
      have := (y 0).isLt
      have h1 : (y 0).val < 1 := this
      omega
    rw [dif_pos (hlt s hs)]
    obtain ⟨v0, v1, v2, v3, v4⟩ := E0_val (⟨8 * (t.val / 8) + s, hlt s hs⟩ : Fin cfg0.N) i
    have d8 : (8 * (t.val / 8) + s) / 8 = t.val / 8 := by omega
    have m8 : (8 * (t.val / 8) + s) % 8 = s := by omega
    match a with
    | ⟨0, _⟩ => show ((E0 ⟨8 * (t.val / 8) + s, hlt s hs⟩ i) 0).val = ((ValueIdx.ix1 ((((cfg0.win 3).blk t).view.emb y) 0) : S4.Idx) 0).val * 1 + (i 0).val; rw [v0, hj]; dsimp only; rw [d8]
    | ⟨1, _⟩ => show ((E0 ⟨8 * (t.val / 8) + s, hlt s hs⟩ i) 1).val = 0 * 1 + (i 1).val; exact v1
    | ⟨2, _⟩ => show ((E0 ⟨8 * (t.val / 8) + s, hlt s hs⟩ i) 2).val = s * 24 + (i 2).val; rw [v2]; dsimp only; rw [m8]
    | ⟨3, _⟩ => show ((E0 ⟨8 * (t.val / 8) + s, hlt s hs⟩ i) 3).val = 0 * 192 + (i 3).val; exact v3
    | ⟨4, _⟩ => show ((E0 ⟨8 * (t.val / 8) + s, hlt s hs⟩ i) 4).val = 0 * 192 + (i 4).val; exact v4

/-- An index of the output array is in point t's block iff each coordinate is in the block's range on its axis. -/
theorem mem_blk3 (t : Fin cfg0.N) (i : S4x1x1.Idx) :
    i ∈ ((cfg0.win 3).blk t).view.set
      ↔ ∀ a : Fin 3, win0_3.index t a * S1x1x1.size a ≤ (i a).val ∧ (i a).val < win0_3.index t a * S1x1x1.size a + S1x1x1.size a := by
  show i ∈ ((View.whole main_v0_1).slice (win0_3.rect t)).set ↔ _
  rw [View.set_slice_whole, Rect.mem_set_unit]
  exact Iff.rfl

/-- Every entry (b, 0, 0) of the output array is in the block the last point of run b writes back. -/
theorem cover3 (i : S4x1x1.Idx) : ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 1 := (i 2).isLt
  have hN : 8 * (i 0).val + 7 < cfg0.N := lt_of_lt_of_eq (show 8 * (i 0).val + 7 < 32 by omega) N_0.symm
  refine ⟨⟨8 * (i 0).val + 7, hN⟩, (flush0_3 _).mpr (by show (8 * (i 0).val + 7) % 8 = 7; omega), ?_⟩
  obtain ⟨e2, e3, e4, e5, e6⟩ := idx_out ⟨8 * (i 0).val + 7, hN⟩
  have q0 : win0_3.index ⟨8 * (i 0).val + 7, hN⟩ (0 : Fin 3) = (8 * (i 0).val + 7) / 8 := congrFun e3 0
  have q1 : win0_3.index ⟨8 * (i 0).val + 7, hN⟩ (1 : Fin 3) = 0 := congrFun e3 1
  have q2 : win0_3.index ⟨8 * (i 0).val + 7, hN⟩ (2 : Fin 3) = 0 := congrFun e3 2
  rw [mem_blk3]
  intro a
  match a with
  | ⟨0, _⟩ => show win0_3.index ⟨8 * (i 0).val + 7, hN⟩ (0 : Fin 3) * 1 ≤ (i 0).val ∧ (i 0).val < win0_3.index ⟨8 * (i 0).val + 7, hN⟩ (0 : Fin 3) * 1 + 1; omega
  | ⟨1, _⟩ => show win0_3.index ⟨8 * (i 0).val + 7, hN⟩ (1 : Fin 3) * 1 ≤ (i 1).val ∧ (i 1).val < win0_3.index ⟨8 * (i 0).val + 7, hN⟩ (1 : Fin 3) * 1 + 1; omega
  | ⟨2, _⟩ => show win0_3.index ⟨8 * (i 0).val + 7, hN⟩ (2 : Fin 3) * 1 ≤ (i 2).val ∧ (i 2).val < win0_3.index ⟨8 * (i 0).val + 7, hN⟩ (2 : Fin 3) * 1 + 1; omega

/-- The output array, read as a vector of four, is the summand's sum across the axes 1 to 4. -/
theorem sum3 (c : Dev nD) : r4 (o3 m c) = total (X3 m c) := by
  have hfin : o3 m c = G3 m c :=
    (dats m 0 c).arrAt_eq_of_cover 3 (G3 m c) (fun t hf => flushed3_eq m c t hf) cover3
  funext j
  rw [hfin]
  refine (shapeCast_apply (G3 m c) shapeCasts_S4x1x1_S4 j (ValueIdx.ix3 (j 0) 0 0) ?_).trans ?_
  · rw [Shape.rowMajor_val_three, Shape.rowMajor_val_one]
    show ((j 0).val * 1 + 0) * 1 + 0 = (j 0).val
    omega
  · exact congrArg (total (X3 m c)) (ValueIdx.eq_ix1 j).symm

end Cert.Hand.KernelValue

end
-- ==== Proof.Value.Out2.lean ====
/-
  Output 2 of the kernel at the ideal instance: the [4, 1, 1] array that accumulates the block totals of its summand ends,
  at (b, 0, 0), at the sum of the summand across the axes 1 to 4 at b. The last point of run b holds the sum of the run's
  eight addends (the first point stores, the later ones add); an addend is the summand's sum over the block's place in the
  argument array; the eight places tile the fibre {i | i 0 = b}.
-/
import proofs.«174523_j64441689309643_1_alg».proof.Proof.Value.Common

set_option maxRecDepth 16384

noncomputable section

namespace Cert.Hand.KernelValue

open Cert.KernelIdeal Cert.KernelIdeal.Gen Cert.Hand.KernelIdeal
open Idealize.ShloMosaic Idealize.ShloMosaic.TcCoe Idealize.ShloMosaic.Tactic Idealize.ShloMosaic.StableHlo
open Idealize.SL Idealize.SL.Sem
open Idealize.ShloMosaic.Pipeline (Dat Cfg Window)

variable (m : (ℓ : Loc nD τ sig) → Buf (Elt Ideal) ℓ)

/-! ### The summand -/

/-- Output 2 sums y_true²: its summand over the argument arrays, -/
abbrev X4 (c : Dev nD) : FVec Ideal S4x1x192x192x192 .f32 := mulf (a1 m c) (a1 m c)
/-- over the two input blocks at a point, -/
abbrev f4 (c : Dev nD) (t : Fin cfg0.N) : FVec Ideal S1x1x24x192x192 .f32 := mulf (xb1 m c t) (xb1 m c t)
/-- and the second is the first where the block sits in the arrays. -/
theorem f4_apply (c : Dev nD) (t : Fin cfg0.N) (i : S1x1x24x192x192.Idx) : f4 m c t i = X4 m c (E0 t i) := by
  show FloatOps.mulf (xb1 m c t i) (xb1 m c t i) = FloatOps.mulf (a1 m c (E0 t i)) (a1 m c (E0 t i))
  rw [xb1_apply]

/-! ### The accumulation -/

/-- What point n adds to the output's block: the total of the summand over the input blocks at n (nothing past the grid). -/
def M4 (c : Dev nD) (n : ℕ) : S1x1x1.Idx → EReal := fun _ =>
  if h : n < cfg0.N then ∑ i : S1x1x24x192x192.Idx, f4 m c ⟨n, h⟩ i else 0

/-- At the last point of a run of eight the block holds the sum of the run's eight addends: the run's first point stores
    its addend, each later one adds its own. -/
theorem acc4_fold (c : Dev nD) (t : Fin cfg0.N) (h7 : t.val % 8 = 7) (y : S1x1x1.Idx) :
    acc4 m c t.val t.isLt y = 0 + ∑ s ∈ Finset.range 8, M4 m c (8 * (t.val / 8) + s) y := by
  have h' : 8 * (t.val / 8) + t.val % 8 < cfg0.N := by rw [Nat.div_add_mod]; exact t.isLt
  rw [Pipeline.eq_accAt_of_mod (acc4 m c) 8
    (fun n hn => first4 (xb0 m c ⟨n, hn⟩) (xb1 m c ⟨n, hn⟩))
    (fun n hn prev => next4 prev (xb0 m c ⟨n, hn⟩) (xb1 m c ⟨n, hn⟩))
    (fun n hn h0 => acc4_first m c ⟨n, hn⟩ h0) (fun n hn h0 => acc4_next m c ⟨n + 1, hn⟩ h0)
    (by norm_num) t.val t.isLt h']
  refine (Pipeline.accAt_add_apply (ι := S1x1x1.Idx) (β := EReal) _ _ (fun _ => 0) (M4 m c) (8 * (t.val / 8)) 7
    (fun hb i => ?_) (fun n hn acc i _ _ => ?_) (t.val % 8) (by omega) h' y).trans (by rw [h7])
  · rw [Cert.Hand.BlockTotals.first4_apply, zero_add]; unfold M4; rw [dif_pos hb]
  · rw [Cert.Hand.BlockTotals.next4_apply]; unfold M4; rw [dif_pos hn]

/-- An addend is the sum of the argument's entries over the block's place in the array. -/
theorem M4_eq (c : Dev nD) (t : Fin cfg0.N) (y : S1x1x1.Idx) :
    M4 m c t.val y = ∑ i : S1x1x24x192x192.Idx, (X4 m c) (E0 t i) := by
  unfold M4; rw [dif_pos t.isLt]
  exact Finset.sum_congr rfl fun i _ => f4_apply m c t i

/-- What the output array ends holding: at (b, 0, 0) the sum across the axes 1 to 4 at b. -/
abbrev G4 (c : Dev nD) : FVec Ideal S4x1x1 .f32 := fun i => total (X4 m c) (ValueIdx.ix1 (i 0))

/-- What a point that writes the output's block back writes is its block of that array. -/
theorem flushed4_eq (c : Dev nD) (t : Fin cfg0.N) (hf : (cfg0.win 4).flush t = true) :
    (dats m 0 c).flushed 4 t = ((cfg0.win 4).blk t).view.read (Elt Ideal) (G4 m c) := by
  have h7 : t.val % 8 = 7 := (flush0_4 t).mp hf
  have hN : t.val < 32 := lt_of_lt_of_eq t.isLt (show cfg0.N = 32 from N_0)
  show (cfg0.win 4).cut (grid0.coords t) ((dats m 0 c).after 4 t) = _
  rw [after0_4]
  funext y
  show acc4 m c t.val t.isLt y = total (X4 m c) (ValueIdx.ix1 ((((cfg0.win 4).blk t).view.emb y) 0))
  rw [acc4_fold m c t h7 y]
  refine Eq.trans ?_ (ValueIdx.hostReduceAdd_apply (X4 m c) (constant (F := Ideal) S_ .f32 0x00000000#32) hRed
    (by decide) _).symm
  have hz : (constant (F := Ideal) S_ .f32 0x00000000#32) (Shape.Idx.first (by decide : 0 < S_.numel)) = (0 : EReal) :=
    Ideal.ofBits_zero_f32
  rw [hz]
  have hlt : ∀ s, s < 8 → 8 * (t.val / 8) + s < cfg0.N := fun s hs =>
    lt_of_lt_of_eq (show 8 * (t.val / 8) + s < 32 by omega) N_0.symm
  rw [← Cert.SumLaw.total_of_blocks (X4 m c) hRed _
    (fun s i => if h : 8 * (t.val / 8) + s < cfg0.N then E0 ⟨8 * (t.val / 8) + s, h⟩ i else E0 t i)
    (fun s hs i a => ?_)]
  · congr 1
    refine Finset.sum_congr rfl fun s hs => ?_
    have hs8 : s < 8 := Finset.mem_range.mp hs
    rw [show M4 m c (8 * (t.val / 8) + s) y = M4 m c (⟨8 * (t.val / 8) + s, hlt s hs8⟩ : Fin cfg0.N).val y from rfl,
      M4_eq]
    exact Finset.sum_congr rfl fun i _ => by rw [dif_pos (hlt s hs8)]
  · obtain ⟨e2, e3, e4, e5, e6⟩ := idx_out t
    have q0 : win0_4.index t (0 : Fin 3) = t.val / 8 := congrFun e4 0
    have hj : ((ValueIdx.ix1 ((((cfg0.win 4).blk t).view.emb y) 0) : S4.Idx) 0).val = t.val / 8 := by
      show win0_4.index t (0 : Fin 3) * 1 + 1 * (y 0).val = _
      have := (y 0).isLt
      have h1 : (y 0).val < 1 := this
      omega
    rw [dif_pos (hlt s hs)]
    obtain ⟨v0, v1, v2, v3, v4⟩ := E0_val (⟨8 * (t.val / 8) + s, hlt s hs⟩ : Fin cfg0.N) i
    have d8 : (8 * (t.val / 8) + s) / 8 = t.val / 8 := by omega
    have m8 : (8 * (t.val / 8) + s) % 8 = s := by omega
    match a with
    | ⟨0, _⟩ => show ((E0 ⟨8 * (t.val / 8) + s, hlt s hs⟩ i) 0).val = ((ValueIdx.ix1 ((((cfg0.win 4).blk t).view.emb y) 0) : S4.Idx) 0).val * 1 + (i 0).val; rw [v0, hj]; dsimp only; rw [d8]
    | ⟨1, _⟩ => show ((E0 ⟨8 * (t.val / 8) + s, hlt s hs⟩ i) 1).val = 0 * 1 + (i 1).val; exact v1
    | ⟨2, _⟩ => show ((E0 ⟨8 * (t.val / 8) + s, hlt s hs⟩ i) 2).val = s * 24 + (i 2).val; rw [v2]; dsimp only; rw [m8]
    | ⟨3, _⟩ => show ((E0 ⟨8 * (t.val / 8) + s, hlt s hs⟩ i) 3).val = 0 * 192 + (i 3).val; exact v3
    | ⟨4, _⟩ => show ((E0 ⟨8 * (t.val / 8) + s, hlt s hs⟩ i) 4).val = 0 * 192 + (i 4).val; exact v4

/-- An index of the output array is in point t's block iff each coordinate is in the block's range on its axis. -/
theorem mem_blk4 (t : Fin cfg0.N) (i : S4x1x1.Idx) :
    i ∈ ((cfg0.win 4).blk t).view.set
      ↔ ∀ a : Fin 3, win0_4.index t a * S1x1x1.size a ≤ (i a).val ∧ (i a).val < win0_4.index t a * S1x1x1.size a + S1x1x1.size a := by
  show i ∈ ((View.whole main_v0_2).slice (win0_4.rect t)).set ↔ _
  rw [View.set_slice_whole, Rect.mem_set_unit]
  exact Iff.rfl

/-- Every entry (b, 0, 0) of the output array is in the block the last point of run b writes back. -/
theorem cover4 (i : S4x1x1.Idx) : ∃ t : Fin cfg0.N, (cfg0.win 4).flush t = true ∧ i ∈ ((cfg0.win 4).blk t).view.set := by
  have hi0 : (i 0).val < 4 := (i 0).isLt
  have hi1 : (i 1).val < 1 := (i 1).isLt
  have hi2 : (i 2).val < 1 := (i 2).isLt
  have hN : 8 * (i 0).val + 7 < cfg0.N := lt_of_lt_of_eq (show 8 * (i 0).val + 7 < 32 by omega) N_0.symm
  refine ⟨⟨8 * (i 0).val + 7, hN⟩, (flush0_4 _).mpr (by show (8 * (i 0).val + 7) % 8 = 7; omega), ?_⟩
  obtain ⟨e2, e3, e4, e5, e6⟩ := idx_out ⟨8 * (i 0).val + 7, hN⟩
  have q0 : win0_4.index ⟨8 * (i 0).val + 7, hN⟩ (0 : Fin 3) = (8 * (i 0).val + 7) / 8 := congrFun e4 0
  have q1 : win0_4.index ⟨8 * (i 0).val + 7, hN⟩ (1 : Fin 3) = 0 := congrFun e4 1
  have q2 : win0_4.index ⟨8 * (i 0).val + 7, hN⟩ (2 : Fin 3) = 0 := congrFun e4 2
  rw [mem_blk4]
  intro a
  match a with
  | ⟨0, _⟩ => show win0_4.index ⟨8 * (i 0).val + 7, hN⟩ (0 : Fin 3) * 1 ≤ (i 0).val ∧ (i 0).val < win0_4.index ⟨8 * (i 0).val + 7, hN⟩ (0 : Fin 3) * 1 + 1; omega
  | ⟨1, _⟩ => show win0_4.index ⟨8 * (i 0).val + 7, hN⟩ (1 : Fin 3) * 1 ≤ (i 1).val ∧ (i 1).val < win0_4.index ⟨8 * (i 0).val + 7, hN⟩ (1 : Fin 3) * 1 + 1; omega
  | ⟨2, _⟩ => show win0_4.index ⟨8 * (i 0).val + 7, hN⟩ (2 : Fin 3) * 1 ≤ (i 2).val ∧ (i 2).val < win0_4.index ⟨8 * (i 0).val + 7, hN⟩ (2 : Fin 3) * 1 + 1; omega

/-- The output array, read as a vector of four, is the summand's sum across the axes 1 to 4. -/
theorem sum4 (c : Dev nD) : r4 (o4 m c) = total (X4 m c) := by
  have hfin : o4 m c = G4 m c :=
    (dats m 0 c).arrAt_eq_of_cover 4 (G4 m c) (fun t hf => flushed4_eq m c t hf) cover4
  funext j
  rw [hfin]
  refine (shapeCast_apply (G4 m c) shapeCasts_S4x1x1_S4 j (ValueIdx.ix3 (j 0) 0 0) ?_).trans ?_
  · rw [Shape.rowMajor_val_three, Shape.rowMajor_val_one]
    show ((j 0).val * 1 + 0) * 1 + 0 = (j 0).val
    omega
  · exact congrArg (total (X4 m c)) (ValueIdx.eq_ix1 j).symm

end Cert.Hand.KernelValue

end
-- ==== Proof.Value.Out3.lean ====
/-
  Output 3 of the kernel at the ideal instance: the [4, 1, 1] array that accumulates the block totals of its summand ends,
  at (b, 0, 0), at the sum of the summand across the axes 1 to 4 at b. The last point of run b holds the sum of the run's
  eight addends (the first point stores, the later ones add); an addend is the summand's sum over the block's place in the
  argument array; the eight places tile the fibre {i | i 0 = b}.
-/
import proofs.«174523_j64441689309643_1_alg».proof.Proof.Value.Common

set_option maxRecDepth 16384

noncomputable section

namespace Cert.Hand.KernelValue

open Cert.KernelIdeal Cert.KernelIdeal.Gen Cert.Hand.KernelIdeal
open Idealize.ShloMosaic Idealize.ShloMosaic.TcCoe Idealize.ShloMosaic.Tactic Idealize.ShloMosaic.StableHlo
open Idealize.SL Idealize.SL.Sem
open Idealize.ShloMosaic.Pipeline (Dat Cfg Window)

variable (m : (ℓ : Loc nD τ sig) → Buf (Elt Ideal) ℓ)

/-! ### The summand -/

/-- Output 3 sums y_pred²: its summand over the argument arrays, -/
abbrev X5 (c : Dev nD) : FVec Ideal S4x1x192x192x192 .f32 := mulf (a0 m c) (a0 m c)
/-- over the two input blocks at a point, -/
abbrev f5 (c : Dev nD) (t : Fin cfg0.N) : FVec Ideal S1x1x24x192x192 .f32 := mulf (xb0 m c t) (xb0 m c t)
/-- and the second is the first where the block sits in the arrays. -/
theorem f5_apply (c : Dev nD) (t : Fin cfg0.N) (i : S1x1x24x192x192.Idx) : f5 m c t i = X5 m c (E0 t i) := by
  show FloatOps.mulf (xb0 m c t i) (xb0 m c t i) = FloatOps.mulf (a0 m c (E0 t i)) (a0 m c (E0 t i))
  rw [xb0_apply]

/-! ### The accumulation -/

/-- What point n adds to the output's block: the total of the summand over the input blocks at n (nothing past the grid). -/
def M5 (c : Dev nD) (n : ℕ) : S1x1x1.Idx → EReal := fun _ =>
  if h : n < cfg0.N then ∑ i : S1x1x24x192x192.Idx, f5 m c ⟨n, h⟩ i else 0

/-- At the last point of a run of eight the block holds the sum of the run's eight addends: the run's first point stores
    its addend, each later one adds its own. -/
theorem acc5_fold (c : Dev nD) (t : Fin cfg0.N) (h7 : t.val % 8 = 7) (y : S1x1x1.Idx) :
    acc5 m c t.val t.isLt y = 0 + ∑ s ∈ Finset.range 8, M5 m c (8 * (t.val / 8) + s) y := by
  have h' : 8 * (t.val / 8) + t.val % 8 < cfg0.N := by rw [Nat.div_add_mod]; exact t.isLt
  rw [Pipeline.eq_accAt_of_mod (acc5 m c) 8
    (fun n hn => first5 (xb0 m c ⟨n, hn⟩) (xb1 m c ⟨n, hn⟩))
    (fun n hn prev => next5 prev (xb0 m c ⟨n, hn⟩) (xb1 m c ⟨n, hn⟩))
    (fun n hn h0 => acc5_first m c ⟨n, hn⟩ h0) (fun n hn h0 => acc5_next m c ⟨n + 1, hn⟩ h0)
    (by norm_num) t.val t.isLt h']
  refine (Pipeline.accAt_add_apply (ι := S1x1x1.Idx) (β := EReal) _ _ (fun _ => 0) (M5 m c) (8 * (t.val / 8)) 7
    (fun hb i => ?_) (fun n hn acc i _ _ => ?_) (t.val % 8) (by omega) h' y).trans (by rw [h7])
  · rw [Cert.Hand.BlockTotals.first5_apply, zero_add]; unfold M5; rw [dif_pos hb]
  · rw [Cert.Hand.BlockTotals.next5_apply]; unfold M5; rw [dif_pos hn]

/-- An addend is the sum of the argument's entries over the block's place in the array. -/
theorem M5_eq (c : Dev nD) (t : Fin cfg0.N) (y : S1x1x1.Idx) :
    M5 m c t.val y = ∑ i : S1x1x24x192x192.Idx, (X5 m c) (E0 t i) := by
  unfold M5; rw [dif_pos t.isLt]
  exact Finset.sum_congr rfl fun i _ => f5_apply m c t i

/-- What the output array ends holding: at (b, 0, 0) the sum across the axes 1 to 4 at b. -/
abbrev G5 (c : Dev nD) : FVec Ideal S4x1x1 .f32 := fun i => total (X5 m c) (ValueIdx.ix1 (i 0))

/-- What a point that writes the output's block back writes is its block of that array. -/
theorem flushed5_eq (c : Dev nD) (t : Fin cfg0.N) (hf : (cfg0.win 5).flush t = true) :
    (dats m 0 c).flushed 5 t = ((cfg0.win 5).blk t).view.read (Elt Ideal) (G5 m c) := by
  have h7 : t.val % 8 = 7 := (flush0_5 t).mp hf
  have hN : t.val < 32 := lt_of_lt_of_eq t.isLt (show cfg0.N = 32 from N_0)
  show (cfg0.win 5).cut (grid0.coords t) ((dats m 0 c).after 5 t) = _
  rw [after0_5]
  funext y
  show acc5 m c t.val t.isLt y = total (X5 m c) (ValueIdx.ix1 ((((cfg0.win 5).blk t).view.emb y) 0))
  rw [acc5_fold m c t h7 y]
  refine Eq.trans ?_ (ValueIdx.hostReduceAdd_apply (X5 m c) (constant (F := Ideal) S_ .f32 0x00000000#32) hRed
    (by decide) _).symm
  have hz : (constant (F := Ideal) S_ .f32 0x00000000#32) (Shape.Idx.first (by decide : 0 < S_.numel)) = (0 : EReal) :=
    Ideal.ofBits_zero_f32
  rw [hz]
  have hlt : ∀ s, s < 8 → 8 * (t.val / 8) + s < cfg0.N := fun s hs =>
    lt_of_lt_of_eq (show 8 * (t.val / 8) + s < 32 by omega) N_0.symm
  rw [← Cert.SumLaw.total_of_blocks (X5 m c) hRed _
    (fun s i => if h : 8 * (t.val / 8) + s < cfg0.N then E0 ⟨8 * (t.val / 8) + s, h⟩ i else E0 t i)
    (fun s hs i a => ?_)]
  · congr 1
    refine Finset.sum_congr rfl fun s hs => ?_
    have hs8 : s < 8 := Finset.mem_range.mp hs
    rw [show M5 m c (8 * (t.val / 8) + s) y = M5 m c (⟨8 * (t.val / 8) + s, hlt s hs8⟩ : Fin cfg0.N).val y from rfl,
      M5_eq]
    exact Finset.sum_congr rfl fun i _ => by rw [dif_pos (hlt s hs8)]
  · obtain ⟨e2, e3, e4, e5, e6⟩ := idx_out t
    have q0 : win0_5.index t (0 : Fin 3) = t.val / 8 := congrFun e5 0
    have hj : ((ValueIdx.ix1 ((((cfg0.win 5).blk t).view.emb y) 0) : S4.Idx) 0).val = t.val / 8 := by
      show win0_5.index t (0 : Fin 3) * 1 + 1 * (y 0).val = _
      have := (y 0).isLt
      have h1 : (y 0).val < 1 := this
      omega
    rw [dif_pos (hlt s hs)]
    obtain ⟨v0, v1, v2, v3, v4⟩ := E0_val (⟨8 * (t.val / 8) + s, hlt s hs⟩ : Fin cfg0.N) i
    have d8 : (8 * (t.val / 8) + s) / 8 = t.val / 8 := by omega
    have m8 : (8 * (t.val / 8) + s) % 8 = s := by omega
    match a with
    | ⟨0, _⟩ => show ((E0 ⟨8 * (t.val / 8) + s, hlt s hs⟩ i) 0).val = ((ValueIdx.ix1 ((((cfg0.win 5).blk t).view.emb y) 0) : S4.Idx) 0).val * 1 + (i 0).val; rw [v0, hj]; dsimp only; rw [d8]
    | ⟨1, _⟩ => show ((E0 ⟨8 * (t.val / 8) + s, hlt s hs⟩ i) 1).val = 0 * 1 + (i 1).val; exact v1
    | ⟨2, _⟩ => show ((E0 ⟨8 * (t.val / 8) + s, hlt s hs⟩ i) 2).val = s * 24 + (i 2).val; rw [v2]; dsimp only; rw [m8]
    | ⟨3, _⟩ => show ((E0 ⟨8 * (t.val / 8) + s, hlt s hs⟩ i) 3).val = 0 * 192 + (i 3).val; exact v3
    | ⟨4, _⟩ => show ((E0 ⟨8 * (t.val / 8) + s, hlt s hs⟩ i) 4).val = 0 * 192 + (i 4).val; exact v4

/-- An index of the output array is in point t's block iff each coordinate is in the block's range on its axis. -/
theorem mem_blk5 (t : Fin cfg0.N) (i : S4x1x1.Idx) :
    i ∈ ((cfg0.win 5).blk t).view.set
      ↔ ∀ a : Fin 3, win0_5.index t a * S1x1x1.size a ≤ (i a).val ∧ (i a).val < win0_5.index t a * S1x1x1.size a + S1x1x1.size a := by
  show i ∈ ((View.whole main_v0_3).slice (win0_5.rect t)).set ↔ _
  rw [View.set_slice_whole, Rect.mem_set_unit]
  exact Iff.rfl

/-- Every entry (b, 0, 0) of the output array is in the block the last point of run b writes back. -/
theorem cover5 (i : S4x1x1.Idx) : ∃ t : Fin cfg0.N, (cfg0.win 5).flush t = true ∧ i ∈ ((cfg0.win 5).blk t).view.set := by
  have hi0 : (i 0).val < 4 := (i 0).isLt
  have hi1 : (i 1).val < 1 := (i 1).isLt
  have hi2 : (i 2).val < 1 := (i 2).isLt
  have hN : 8 * (i 0).val + 7 < cfg0.N := lt_of_lt_of_eq (show 8 * (i 0).val + 7 < 32 by omega) N_0.symm
  refine ⟨⟨8 * (i 0).val + 7, hN⟩, (flush0_5 _).mpr (by show (8 * (i 0).val + 7) % 8 = 7; omega), ?_⟩
  obtain ⟨e2, e3, e4, e5, e6⟩ := idx_out ⟨8 * (i 0).val + 7, hN⟩
  have q0 : win0_5.index ⟨8 * (i 0).val + 7, hN⟩ (0 : Fin 3) = (8 * (i 0).val + 7) / 8 := congrFun e5 0
  have q1 : win0_5.index ⟨8 * (i 0).val + 7, hN⟩ (1 : Fin 3) = 0 := congrFun e5 1
  have q2 : win0_5.index ⟨8 * (i 0).val + 7, hN⟩ (2 : Fin 3) = 0 := congrFun e5 2
  rw [mem_blk5]
  intro a
  match a with
  | ⟨0, _⟩ => show win0_5.index ⟨8 * (i 0).val + 7, hN⟩ (0 : Fin 3) * 1 ≤ (i 0).val ∧ (i 0).val < win0_5.index ⟨8 * (i 0).val + 7, hN⟩ (0 : Fin 3) * 1 + 1; omega
  | ⟨1, _⟩ => show win0_5.index ⟨8 * (i 0).val + 7, hN⟩ (1 : Fin 3) * 1 ≤ (i 1).val ∧ (i 1).val < win0_5.index ⟨8 * (i 0).val + 7, hN⟩ (1 : Fin 3) * 1 + 1; omega
  | ⟨2, _⟩ => show win0_5.index ⟨8 * (i 0).val + 7, hN⟩ (2 : Fin 3) * 1 ≤ (i 2).val ∧ (i 2).val < win0_5.index ⟨8 * (i 0).val + 7, hN⟩ (2 : Fin 3) * 1 + 1; omega

/-- The output array, read as a vector of four, is the summand's sum across the axes 1 to 4. -/
theorem sum5 (c : Dev nD) : r4 (o5 m c) = total (X5 m c) := by
  have hfin : o5 m c = G5 m c :=
    (dats m 0 c).arrAt_eq_of_cover 5 (G5 m c) (fun t hf => flushed5_eq m c t hf) cover5
  funext j
  rw [hfin]
  refine (shapeCast_apply (G5 m c) shapeCasts_S4x1x1_S4 j (ValueIdx.ix3 (j 0) 0 0) ?_).trans ?_
  · rw [Shape.rowMajor_val_three, Shape.rowMajor_val_one]
    show ((j 0).val * 1 + 0) * 1 + 0 = (j 0).val
    omega
  · exact congrArg (total (X5 m c)) (ValueIdx.eq_ix1 j).symm

end Cert.Hand.KernelValue

end
-- ==== Proof.Value.Out4.lean ====
/-
  Output 4 of the kernel at the ideal instance: the [4, 1, 1] array that accumulates the block totals of its summand ends,
  at (b, 0, 0), at the sum of the summand across the axes 1 to 4 at b. The last point of run b holds the sum of the run's
  eight addends (the first point stores, the later ones add); an addend is the summand's sum over the block's place in the
  argument array; the eight places tile the fibre {i | i 0 = b}.
-/
import proofs.«174523_j64441689309643_1_alg».proof.Proof.Value.Common

set_option maxRecDepth 16384

noncomputable section

namespace Cert.Hand.KernelValue

open Cert.KernelIdeal Cert.KernelIdeal.Gen Cert.Hand.KernelIdeal
open Idealize.ShloMosaic Idealize.ShloMosaic.TcCoe Idealize.ShloMosaic.Tactic Idealize.ShloMosaic.StableHlo
open Idealize.SL Idealize.SL.Sem
open Idealize.ShloMosaic.Pipeline (Dat Cfg Window)

variable (m : (ℓ : Loc nD τ sig) → Buf (Elt Ideal) ℓ)

/-! ### The summand -/

/-- Output 4 sums y_true·y_pred: its summand over the argument arrays, -/
abbrev X6 (c : Dev nD) : FVec Ideal S4x1x192x192x192 .f32 := mulf (a1 m c) (a0 m c)
/-- over the two input blocks at a point, -/
abbrev f6 (c : Dev nD) (t : Fin cfg0.N) : FVec Ideal S1x1x24x192x192 .f32 := mulf (xb1 m c t) (xb0 m c t)
/-- and the second is the first where the block sits in the arrays. -/
theorem f6_apply (c : Dev nD) (t : Fin cfg0.N) (i : S1x1x24x192x192.Idx) : f6 m c t i = X6 m c (E0 t i) := by
  show FloatOps.mulf (xb1 m c t i) (xb0 m c t i) = FloatOps.mulf (a1 m c (E0 t i)) (a0 m c (E0 t i))
  rw [xb1_apply, xb0_apply]

/-! ### The accumulation -/

/-- What point n adds to the output's block: the total of the summand over the input blocks at n (nothing past the grid). -/
def M6 (c : Dev nD) (n : ℕ) : S1x1x1.Idx → EReal := fun _ =>
  if h : n < cfg0.N then ∑ i : S1x1x24x192x192.Idx, f6 m c ⟨n, h⟩ i else 0

/-- At the last point of a run of eight the block holds the sum of the run's eight addends: the run's first point stores
    its addend, each later one adds its own. -/
theorem acc6_fold (c : Dev nD) (t : Fin cfg0.N) (h7 : t.val % 8 = 7) (y : S1x1x1.Idx) :
    acc6 m c t.val t.isLt y = 0 + ∑ s ∈ Finset.range 8, M6 m c (8 * (t.val / 8) + s) y := by
  have h' : 8 * (t.val / 8) + t.val % 8 < cfg0.N := by rw [Nat.div_add_mod]; exact t.isLt
  rw [Pipeline.eq_accAt_of_mod (acc6 m c) 8
    (fun n hn => first6 (xb0 m c ⟨n, hn⟩) (xb1 m c ⟨n, hn⟩))
    (fun n hn prev => next6 prev (xb0 m c ⟨n, hn⟩) (xb1 m c ⟨n, hn⟩))
    (fun n hn h0 => acc6_first m c ⟨n, hn⟩ h0) (fun n hn h0 => acc6_next m c ⟨n + 1, hn⟩ h0)
    (by norm_num) t.val t.isLt h']
  refine (Pipeline.accAt_add_apply (ι := S1x1x1.Idx) (β := EReal) _ _ (fun _ => 0) (M6 m c) (8 * (t.val / 8)) 7
    (fun hb i => ?_) (fun n hn acc i _ _ => ?_) (t.val % 8) (by omega) h' y).trans (by rw [h7])
  · rw [Cert.Hand.BlockTotals.first6_apply, zero_add]; unfold M6; rw [dif_pos hb]
  · rw [Cert.Hand.BlockTotals.next6_apply]; unfold M6; rw [dif_pos hn]

/-- An addend is the sum of the argument's entries over the block's place in the array. -/
theorem M6_eq (c : Dev nD) (t : Fin cfg0.N) (y : S1x1x1.Idx) :
    M6 m c t.val y = ∑ i : S1x1x24x192x192.Idx, (X6 m c) (E0 t i) := by
  unfold M6; rw [dif_pos t.isLt]
  exact Finset.sum_congr rfl fun i _ => f6_apply m c t i

/-- What the output array ends holding: at (b, 0, 0) the sum across the axes 1 to 4 at b. -/
abbrev G6 (c : Dev nD) : FVec Ideal S4x1x1 .f32 := fun i => total (X6 m c) (ValueIdx.ix1 (i 0))

/-- What a point that writes the output's block back writes is its block of that array. -/
theorem flushed6_eq (c : Dev nD) (t : Fin cfg0.N) (hf : (cfg0.win 6).flush t = true) :
    (dats m 0 c).flushed 6 t = ((cfg0.win 6).blk t).view.read (Elt Ideal) (G6 m c) := by
  have h7 : t.val % 8 = 7 := (flush0_6 t).mp hf
  have hN : t.val < 32 := lt_of_lt_of_eq t.isLt (show cfg0.N = 32 from N_0)
  show (cfg0.win 6).cut (grid0.coords t) ((dats m 0 c).after 6 t) = _
  rw [after0_6]
  funext y
  show acc6 m c t.val t.isLt y = total (X6 m c) (ValueIdx.ix1 ((((cfg0.win 6).blk t).view.emb y) 0))
  rw [acc6_fold m c t h7 y]
  refine Eq.trans ?_ (ValueIdx.hostReduceAdd_apply (X6 m c) (constant (F := Ideal) S_ .f32 0x00000000#32) hRed
    (by decide) _).symm
  have hz : (constant (F := Ideal) S_ .f32 0x00000000#32) (Shape.Idx.first (by decide : 0 < S_.numel)) = (0 : EReal) :=
    Ideal.ofBits_zero_f32
  rw [hz]
  have hlt : ∀ s, s < 8 → 8 * (t.val / 8) + s < cfg0.N := fun s hs =>
    lt_of_lt_of_eq (show 8 * (t.val / 8) + s < 32 by omega) N_0.symm
  rw [← Cert.SumLaw.total_of_blocks (X6 m c) hRed _
    (fun s i => if h : 8 * (t.val / 8) + s < cfg0.N then E0 ⟨8 * (t.val / 8) + s, h⟩ i else E0 t i)
    (fun s hs i a => ?_)]
  · congr 1
    refine Finset.sum_congr rfl fun s hs => ?_
    have hs8 : s < 8 := Finset.mem_range.mp hs
    rw [show M6 m c (8 * (t.val / 8) + s) y = M6 m c (⟨8 * (t.val / 8) + s, hlt s hs8⟩ : Fin cfg0.N).val y from rfl,
      M6_eq]
    exact Finset.sum_congr rfl fun i _ => by rw [dif_pos (hlt s hs8)]
  · obtain ⟨e2, e3, e4, e5, e6⟩ := idx_out t
    have q0 : win0_6.index t (0 : Fin 3) = t.val / 8 := congrFun e6 0
    have hj : ((ValueIdx.ix1 ((((cfg0.win 6).blk t).view.emb y) 0) : S4.Idx) 0).val = t.val / 8 := by
      show win0_6.index t (0 : Fin 3) * 1 + 1 * (y 0).val = _
      have := (y 0).isLt
      have h1 : (y 0).val < 1 := this
      omega
    rw [dif_pos (hlt s hs)]
    obtain ⟨v0, v1, v2, v3, v4⟩ := E0_val (⟨8 * (t.val / 8) + s, hlt s hs⟩ : Fin cfg0.N) i
    have d8 : (8 * (t.val / 8) + s) / 8 = t.val / 8 := by omega
    have m8 : (8 * (t.val / 8) + s) % 8 = s := by omega
    match a with
    | ⟨0, _⟩ => show ((E0 ⟨8 * (t.val / 8) + s, hlt s hs⟩ i) 0).val = ((ValueIdx.ix1 ((((cfg0.win 6).blk t).view.emb y) 0) : S4.Idx) 0).val * 1 + (i 0).val; rw [v0, hj]; dsimp only; rw [d8]
    | ⟨1, _⟩ => show ((E0 ⟨8 * (t.val / 8) + s, hlt s hs⟩ i) 1).val = 0 * 1 + (i 1).val; exact v1
    | ⟨2, _⟩ => show ((E0 ⟨8 * (t.val / 8) + s, hlt s hs⟩ i) 2).val = s * 24 + (i 2).val; rw [v2]; dsimp only; rw [m8]
    | ⟨3, _⟩ => show ((E0 ⟨8 * (t.val / 8) + s, hlt s hs⟩ i) 3).val = 0 * 192 + (i 3).val; exact v3
    | ⟨4, _⟩ => show ((E0 ⟨8 * (t.val / 8) + s, hlt s hs⟩ i) 4).val = 0 * 192 + (i 4).val; exact v4

/-- An index of the output array is in point t's block iff each coordinate is in the block's range on its axis. -/
theorem mem_blk6 (t : Fin cfg0.N) (i : S4x1x1.Idx) :
    i ∈ ((cfg0.win 6).blk t).view.set
      ↔ ∀ a : Fin 3, win0_6.index t a * S1x1x1.size a ≤ (i a).val ∧ (i a).val < win0_6.index t a * S1x1x1.size a + S1x1x1.size a := by
  show i ∈ ((View.whole main_v0_4).slice (win0_6.rect t)).set ↔ _
  rw [View.set_slice_whole, Rect.mem_set_unit]
  exact Iff.rfl

/-- Every entry (b, 0, 0) of the output array is in the block the last point of run b writes back. -/
theorem cover6 (i : S4x1x1.Idx) : ∃ t : Fin cfg0.N, (cfg0.win 6).flush t = true ∧ i ∈ ((cfg0.win 6).blk t).view.set := by
  have hi0 : (i 0).val < 4 := (i 0).isLt
  have hi1 : (i 1).val < 1 := (i 1).isLt
  have hi2 : (i 2).val < 1 := (i 2).isLt
  have hN : 8 * (i 0).val + 7 < cfg0.N := lt_of_lt_of_eq (show 8 * (i 0).val + 7 < 32 by omega) N_0.symm
  refine ⟨⟨8 * (i 0).val + 7, hN⟩, (flush0_6 _).mpr (by show (8 * (i 0).val + 7) % 8 = 7; omega), ?_⟩
  obtain ⟨e2, e3, e4, e5, e6⟩ := idx_out ⟨8 * (i 0).val + 7, hN⟩
  have q0 : win0_6.index ⟨8 * (i 0).val + 7, hN⟩ (0 : Fin 3) = (8 * (i 0).val + 7) / 8 := congrFun e6 0
  have q1 : win0_6.index ⟨8 * (i 0).val + 7, hN⟩ (1 : Fin 3) = 0 := congrFun e6 1
  have q2 : win0_6.index ⟨8 * (i 0).val + 7, hN⟩ (2 : Fin 3) = 0 := congrFun e6 2
  rw [mem_blk6]
  intro a
  match a with
  | ⟨0, _⟩ => show win0_6.index ⟨8 * (i 0).val + 7, hN⟩ (0 : Fin 3) * 1 ≤ (i 0).val ∧ (i 0).val < win0_6.index ⟨8 * (i 0).val + 7, hN⟩ (0 : Fin 3) * 1 + 1; omega
  | ⟨1, _⟩ => show win0_6.index ⟨8 * (i 0).val + 7, hN⟩ (1 : Fin 3) * 1 ≤ (i 1).val ∧ (i 1).val < win0_6.index ⟨8 * (i 0).val + 7, hN⟩ (1 : Fin 3) * 1 + 1; omega
  | ⟨2, _⟩ => show win0_6.index ⟨8 * (i 0).val + 7, hN⟩ (2 : Fin 3) * 1 ≤ (i 2).val ∧ (i 2).val < win0_6.index ⟨8 * (i 0).val + 7, hN⟩ (2 : Fin 3) * 1 + 1; omega

/-- The output array, read as a vector of four, is the summand's sum across the axes 1 to 4. -/
theorem sum6 (c : Dev nD) : r4 (o6 m c) = total (X6 m c) := by
  have hfin : o6 m c = G6 m c :=
    (dats m 0 c).arrAt_eq_of_cover 6 (G6 m c) (fun t hf => flushed6_eq m c t hf) cover6
  funext j
  rw [hfin]
  refine (shapeCast_apply (G6 m c) shapeCasts_S4x1x1_S4 j (ValueIdx.ix3 (j 0) 0 0) ?_).trans ?_
  · rw [Shape.rowMajor_val_three, Shape.rowMajor_val_one]
    show ((j 0).val * 1 + 0) * 1 + 0 = (j 0).val
    omega
  · exact congrArg (total (X6 m c)) (ValueIdx.eq_ix1 j).symm

end Cert.Hand.KernelValue

end
-- ==== Proof.KernelValue.lean ====
/-
  The kernel's VALUE at the ideal instance.

  After the region each of the five [4, 1, 1] output arrays holds, at (b, 0, 0), what the last point of run b wrote back:
  the sum of the run's eight addends, each the total of a summand (y_true, y_pred, y_true², y_pred², y_true·y_pred) over
  the block (b, 0, d, 0, 0) of the arguments. The eight blocks of a run tile the fibre {i | i 0 = b} of the argument array,
  and sums of extended reals may be regrouped freely, so the entry is the sum across the axes 1 to 4 at b — the reference's
  own reduction (one module per output). The host lines after the region are the same scalar algebra on both sides,
  carried as one function.
-/
import proofs.«174523_j64441689309643_1_alg».proof.Proof.Value.Out0
import proofs.«174523_j64441689309643_1_alg».proof.Proof.Value.Out1
import proofs.«174523_j64441689309643_1_alg».proof.Proof.Value.Out2
import proofs.«174523_j64441689309643_1_alg».proof.Proof.Value.Out3
import proofs.«174523_j64441689309643_1_alg».proof.Proof.Value.Out4

noncomputable section

namespace Cert.Hand.KernelValue

open Cert.KernelIdeal Cert.KernelIdeal.Gen Cert.Hand.KernelIdeal
open Idealize.ShloMosaic Idealize.ShloMosaic.TcCoe
open Idealize.SL Idealize.SL.Sem

variable (m : (ℓ : Loc nD τ sig) → Buf (Elt Ideal) ℓ)

/-- At the ideal instance every weakly fair execution of the kernel's program terminates with its result at the shared
    scalar algebra of the five sums across the axes 1 to 4 — of y_true, y_pred, y_true², y_pred² and y_true·y_pred — and
    its arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v39)
          = Cert.Tail.cc bcast_S_S4 (total (a1 m c)) (total (a0 m c)) (total (mulf (a1 m c) (a1 m c)))
              (total (mulf (a0 m c) (a0 m c))) (total (mulf (a1 m c) (a0 m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (by rw [sum2 m c, sum3 m c, sum4 m c, sum5 m c, sum6 m c]), (h c).2⟩)
    (run_tail (F := Ideal) m ρ)

end Cert.Hand.KernelValue

end
-- ==== Proof.RefSide.lean ====
/-
  The reference, read as the shared scalar algebra of its five sums: its result is `Cert.Tail.cc` of the sums of
  y_true, y_pred, y_true², y_pred² and y_true·y_pred across the axes 1 to 4 (argument 0 is y_pred, argument 1 y_true).
-/
import proofs.«174523_j64441689309643_1_alg».proof.Proof.Gen.ReferenceIdeal.Run
import proofs.«174523_j64441689309643_1_alg».proof.Proof.Tail

noncomputable section

namespace Cert.Hand.Reference

open Cert.ReferenceIdeal Cert.ReferenceIdeal.Gen Idealize.ShloMosaic Idealize.ShloMosaic.TcCoe Idealize.SL.Sem

variable {F : FTy → Type} [FloatOps F]

/-- The sum across the axes 1 to 4, as the reference takes it: from the zero word. -/
abbrev total (X : FVec F S4x1x192x192x192 .f32) : FVec F S4 .f32 :=
  Host.reduceAdd X (constant S_ .f32 0x00000000#32) reducesTo_S4x1x192x192x192_S4_d1_2_3_4 h_S_

/-- The reference's result from its two arguments. -/
def result (x0 x1 : FVec F S4x1x192x192x192 .f32) : FVec F S4 .f32 :=
  Cert.Tail.cc bcast_S_S4 (total x1) (total x0) (total (mulf x1 x1)) (total (mulf x0 x0)) (total (mulf x1 x0))

/-- Every weakly fair execution of the reference terminates with its result at that function of the arguments, which it
    leaves unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.ReferenceIdeal.Value.run (F := F) m ρ)

end Cert.Hand.Reference

end
-- ==== Proof.lean ====
/-
  The certificate of the box-filter cross-correlation kernel against its jnp reference, over the extended reals.

  With the window equal to the whole volume, each of the reference's five box sums is one sum per batch entry across the
  channel and spatial axes: I = Σ y_true, J = Σ y_pred, I2 = Σ y_true², J2 = Σ y_pred², IJ = Σ y_true·y_pred; the result is
  cc = cross / (√I_var · √J_var + ε) with cross = IJ − u_J·I − u_I·J + u_I·u_J·n, I_var = I2 − 2·u_I·I + u_I²·n,
  J_var = J2 − 2·u_J·J + u_J²·n, u_I = I / n, u_J = J / n, n = 192³.

  The kernel forms the same five sums on a 4 × 8 grid: point (b, d) totals the block (b, 0, d, 0, 0) of [1, 1, 24, 192, 192]
  entries axis by axis, stores the totals at d = 0 and adds them to the stored ones at d ≠ 0, into output blocks that move
  with b only; the same scalar algebra follows on the host. At the ideal instance addition of extended reals is commutative
  and associative, so the nested and accumulated sums are the reference's sums whatever the inputs: the precondition
  (finite inputs) is not used.

  * The three frames: the two kernel programs by the body's two runs (first point of a run of eight / later point) under
    the pipeline's launch with its host lines after the region, at the word level and at the ideal instance from one text;
    the reference by its run with the result dropped.
  * The idealization rewrote nothing, so its conjunct is trivial.
  * The values: both results are one function (the scalar algebra) of the five sums, and each kernel output array, read as
    a vector of four, is the reference's sum.
-/
import proofs.«174523_j64441689309643_1_alg».proof.Defs
import proofs.«174523_j64441689309643_1_alg».proof.Proof.Gen.Kernel
import proofs.«174523_j64441689309643_1_alg».proof.Proof.Gen.KernelIdeal
import proofs.«174523_j64441689309643_1_alg».proof.Proof.Gen.ReferenceIdeal
import proofs.«174523_j64441689309643_1_alg».proof.Proof.Gen.Pre_finite_inputs
import proofs.«174523_j64441689309643_1_alg».proof.Proof.HandKernel.Body
import proofs.«174523_j64441689309643_1_alg».proof.Proof.HandKernelIdeal.Body
import proofs.«174523_j64441689309643_1_alg».proof.Proof.KernelValue
import proofs.«174523_j64441689309643_1_alg».proof.Proof.RefSide
import Idealize.ShloMosaic.Adequacy
import Idealize.ShloMosaic.Init

noncomputable section

namespace Cert.Proof

open Idealize.ShloMosaic Idealize.SL.Sem

/-- The word-level kernel program runs to the end, faults nowhere and leaves its arguments unchanged. -/
theorem frame_k : Cert.frame_Kernel := fun m ρ _ => Cert.Hand.Kernel.frame (F := Bits) m ρ

/-- So does its reading at the ideal instance. -/
theorem frame_ki : Cert.frame_KernelIdeal := fun m ρ _ => Cert.Hand.KernelIdeal.frame (F := Ideal) m ρ

/-- The reference's frame is its run with the result dropped. -/
theorem frame_ri : Cert.frame_ReferenceIdeal := fun m ρ _ =>
  (θ_run Cert.ReferenceIdeal.defs _ _).mono (fun _ h c => (h c).2) (Cert.Hand.Reference.run (F := Ideal) m ρ)

/-- The idealization rewrote no operation. -/
theorem preserves : Cert.preserves_Kernel_KernelIdeal := trivial

/-- From memories agreeing on the arguments both programs end at the scalar algebra of the same five sums. -/
theorem algebraic : Cert.algebraic_KernelIdeal_ReferenceIdeal := by
  intro m ρ m' ρ' _ hagree
  refine ⟨_, Cert.Hand.KernelValue.run_value m ρ, ?_⟩
  refine (θ_run Cert.ReferenceIdeal.defs _ _).mono (fun _ h c => ⟨(h c).1.trans ?_, (h c).2⟩)
    (Cert.Hand.Reference.run (F := Ideal) m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
